-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S2x200000 : Shape := ⟨2, ![2, 200000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_
  bcast_S_S2x200000 : S_.BroadcastsInDim S2x200000 (![] : Fin 0 → Fin S2x200000.rank)
  reducesTo_S2x200000_S_d0_1 : S2x200000.ReducesTo [0, 1] S_

variable [Facts]

def fn_part2 {F : FTy → Type} [FloatOps F] (main_arg0 : IVec S100000 32) (main_arg2 : IVec S2x200000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg0 main_v34
  let main_c_13 : IVec S_ 32 := constantI S_ 32 100000#32
  let main_v36 : IVec S100000 32 := broadcastInDim S100000 ![] bcast_S_S100000 main_c_13
  let main_v37 : IVec S100000 1 := cmpi .slt main_arg0 main_v36
  let main_v38 : IVec S100000 1 := andi main_v35 main_v37
  let main_c_14 : IVec S_ 1 := constantI S_ 1 1#1
  let main_v39 : IVec S_ 1 := (fun x v => Host.reduce IntOp.andi x v reducesTo_S100000_S_d0 h_S_) main_v38 main_c_14
  let main_v40 : IVec S_ 1 := andi main_v33 main_v39
  let main_c_15 : IVec S_ 32 := constantI S_ 32 0#32
  let main_v41 : IVec S2x200000 32 := broadcastInDim S2x200000 ![] bcast_S_S2x200000 main_c_15
  let main_v42 : IVec S2x200000 1 := cmpi .sge main_arg2 main_v41
  let main_c_16 : IVec S_ 32 := constantI S_ 32 100000#32
  let main_v43 : IVec S2x200000 32 := broadcastInDim S2x200000 ![] bcast_S_S2x200000 main_c_16
  let main_v44 : IVec S2x200000 1 := cmpi .slt main_arg2 main_v43
  let main_v45 : IVec S2x200000 1 := andi main_v42 main_v44
  let main_c_17 : IVec S_ 1 := constantI S_ 1 1#1
  let main_v46 : IVec S_ 1 := (fun x v => Host.reduce IntOp.andi x v reducesTo_S2x200000_S_d0_1 h_S_) main_v45 main_c_17
  let main_v47 : IVec S_ 1 := andi main_v40 main_v46
  main_v47

def fn_part1 {F : FTy → Type} [FloatOps F] (main_arg0 : IVec S100000 32) (main_arg2 : IVec S2x200000 32) (main_arg7 : FVec F S128x128 .f32) (main_arg8 : FVec F S128 .f32) (main_arg9 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg0 main_arg2 main_v33

def fn {F : FTy → Type} [FloatOps F] (main_arg0 : IVec S100000 32) (main_arg1 : IVec S2x1600000 32) (main_arg2 : IVec S2x200000 32) (main_arg3 : FVec F S100000x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) : IVec S_ 1 :=
  let main_v0 : FVec F S100000x128 .f32 := Host.absf main_arg3
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg2 main_arg7 main_arg8 main_arg9 main_v13 main_v16
-- ==== Kernel.lean ====
abbrev S100000 : Shape := ⟨1, ![100000]⟩
abbrev S2x1600000 : Shape := ⟨2, ![2, 1600000]⟩
abbrev S2x200000 : Shape := ⟨2, ![2, 200000]⟩
abbrev S100000x128 : Shape := ⟨2, ![100000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200704x128 : Shape := ⟨2, ![200704, 128]⟩
abbrev S200704 : Shape := ⟨1, ![200704]⟩
abbrev S4096x128 : Shape := ⟨2, ![4096, 128]⟩
abbrev S4096 : Shape := ⟨1, ![4096]⟩

abbrev nBuf : Space → Nat
  | .hbm => 139
  | .vmem => 24
  | .smem => 0
  | _ => 0

abbrev hbmTy0_0 (i : Nat) : BufTy := match i % 128 with
  | 0 => ⟨S100000, .i32⟩
  | 1 => ⟨S2x1600000, .i32⟩
  | 2 => ⟨S2x200000, .i32⟩
  | 3 => ⟨S100000x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S1x1600000, .i32⟩
  | 11 => ⟨S1600000, .i32⟩
  | 12 => ⟨S1x1600000, .i32⟩
  | 13 => ⟨S1600000, .i32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S1, .i32⟩
  | 23 => ⟨S_, .i32⟩
  | 24 => ⟨S100000x1, .i32⟩
  | 25 => ⟨S100000x1, .i1⟩
  | 26 => ⟨S1x1, .i32⟩
  | 27 => ⟨S100000x1, .i32⟩
  | 28 => ⟨S100000x1, .i1⟩
  | 29 => ⟨S100000x1, .i1⟩
  | 30 => ⟨S_, .i1⟩
  | 31 => ⟨S100000, .i1⟩
  | 32 => ⟨S100000x128, .f32⟩
  | 33 => ⟨S100000x128, .i1⟩
  | 34 => ⟨S_, .f32⟩
  | 35 => ⟨S100000x128, .f32⟩
  | 36 => ⟨S100000x128, .f32⟩
  | 37 => ⟨S_, .f32⟩
  | 38 => ⟨S1600000, .f32⟩
  | 39 => ⟨S_, .f32⟩
  | 40 => ⟨S100000, .f32⟩
  | 41 => ⟨S1600000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x128, .f32⟩
  | 78 => ⟨S100000x128, .f32⟩
  | 79 => ⟨S1x128, .f32⟩
  | 80 => ⟨S100000x128, .f32⟩
  | 81 => ⟨S1x200000, .i32⟩
  | 82 => ⟨S200000, .i32⟩
  | 83 => ⟨S1x200000, .i32⟩
  | 84 => ⟨S200000, .i32⟩
  | 85 => ⟨S_, .i32⟩
  | 86 => ⟨S200000, .i32⟩
  | 87 => ⟨S200000, .i1⟩
  | 88 => ⟨S_, .i32⟩
  | 89 => ⟨S200000, .i32⟩
  | 90 => ⟨S200000, .i32⟩
  | 91 => ⟨S200000, .i32⟩
  | 92 => ⟨S200000x1, .i32⟩
  | 93 => ⟨S1, .i32⟩
  | 94 => ⟨S_, .i32⟩
  | 95 => ⟨S200000x1, .i32⟩
  | 96 => ⟨S200000x1, .i1⟩
  | 97 => ⟨S1x1, .i32⟩
  | 98 => ⟨S200000x1, .i32⟩
  | 99 => ⟨S200000x1, .i1⟩
  | 100 => ⟨S200000x1, .i1⟩
  | 101 => ⟨S_, .i1⟩
  | 102 => ⟨S200000, .i1⟩
  | 103 => ⟨S200000x128, .f32⟩
  | 104 => ⟨S200000x128, .i1⟩
  | 105 => ⟨S_, .f32⟩
  | 106 => ⟨S200000x128, .f32⟩
  | 107 => ⟨S200000x128, .f32⟩
  | 108 => ⟨S_, .i32⟩
  | 109 => ⟨S200000, .i32⟩
  | 110 => ⟨S200000, .i1⟩
  | 111 => ⟨S_, .i32⟩
  | 112 => ⟨S200000, .i32⟩
  | 113 => ⟨S200000, .i32⟩
  | 114 => ⟨S200000, .i32⟩
  | 115 => ⟨S200000x1, .i32⟩
  | 116 => ⟨S1, .i32⟩
  | 117 => ⟨S_, .i32⟩
  | 118 => ⟨S200000x1, .i32⟩
  | 119 => ⟨S200000x1, .i1⟩
  | 120 => ⟨S1x1, .i32⟩
  | 121 => ⟨S200000x1, .i32⟩
  | 122 => ⟨S200000x1, .i1⟩
  | 123 => ⟨S200000x1, .i1⟩
  | 124 => ⟨S_, .i1⟩
  | 125 => ⟨S200000, .i1⟩
  | 126 => ⟨S200000x128, .f32⟩
  | 127 => ⟨S200000x128, .i1⟩
  | _ => ⟨S100000, .i32⟩

abbrev hbmTy0_1 (i : Nat) : BufTy := match i % 128 with
  | 0 => ⟨S_, .f32⟩
  | 1 => ⟨S200000x128, .f32⟩
  | 2 => ⟨S200000x128, .f32⟩
  | 3 => ⟨S_, .i32⟩
  | 4 => ⟨S_, .f32⟩
  | 5 => ⟨S200704x128, .f32⟩
  | 6 => ⟨S_, .i32⟩
  | 7 => ⟨S_, .f32⟩
  | 8 => ⟨S200704x128, .f32⟩
  | 9 => ⟨S200704, .f32⟩
  | 10 => ⟨S200000, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096, .f32⟩
  | .local _ .vmem, ⟨23, _⟩ => ⟨S4096, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_cst_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_cst_1 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_c : Ref sig .tc := ⟨.hbm, 47, rfl⟩
abbrev main_v12 : Ref sig .tc := ⟨.hbm, 48, rfl⟩
abbrev main_v13 : Ref sig .tc := ⟨.hbm, 49, rfl⟩
abbrev main_c_2 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst_3 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_c_4 : Ref sig .tc := ⟨.hbm, 64, rfl⟩
abbrev main_v26 : Ref sig .tc := ⟨.hbm, 65, rfl⟩
abbrev main_v27 : Ref sig .tc := ⟨.hbm, 66, rfl⟩
abbrev main_c_5 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_6 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_call1_c : Ref sig .tc := ⟨.hbm, 85, rfl⟩
abbrev main_call1_v0 : Ref sig .tc := ⟨.hbm, 86, rfl⟩
abbrev main_call1_v1 : Ref sig .tc := ⟨.hbm, 87, rfl⟩
abbrev main_call1_c_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_c_1 : Ref sig .tc := ⟨.hbm, 93, rfl⟩
abbrev main_call1_c_2 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_c_3 : Ref sig .tc := ⟨.hbm, 101, rfl⟩
abbrev main_call1_v12 : Ref sig .tc := ⟨.hbm, 102, rfl⟩
abbrev main_call1_v13 : Ref sig .tc := ⟨.hbm, 103, rfl⟩
abbrev main_call1_v14 : Ref sig .tc := ⟨.hbm, 104, rfl⟩
abbrev main_call1_cst : Ref sig .tc := ⟨.hbm, 105, rfl⟩
abbrev main_call1_v15 : Ref sig .tc := ⟨.hbm, 106, rfl⟩
abbrev main_v44 : Ref sig .tc := ⟨.hbm, 107, rfl⟩
abbrev main_call2_c : Ref sig .tc := ⟨.hbm, 108, rfl⟩
abbrev main_call2_v0 : Ref sig .tc := ⟨.hbm, 109, rfl⟩
abbrev main_call2_v1 : Ref sig .tc := ⟨.hbm, 110, rfl⟩
abbrev main_call2_c_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_c_1 : Ref sig .tc := ⟨.hbm, 116, rfl⟩
abbrev main_call2_c_2 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_c_3 : Ref sig .tc := ⟨.hbm, 124, rfl⟩
abbrev main_call2_v12 : Ref sig .tc := ⟨.hbm, 125, rfl⟩
abbrev main_call2_v13 : Ref sig .tc := ⟨.hbm, 126, rfl⟩
abbrev main_call2_v14 : Ref sig .tc := ⟨.hbm, 127, rfl⟩
abbrev main_call2_cst : Ref sig .tc := ⟨.hbm, 128, rfl⟩
abbrev main_call2_v15 : Ref sig .tc := ⟨.hbm, 129, rfl⟩
abbrev main_v45 : Ref sig .tc := ⟨.hbm, 130, rfl⟩
abbrev main_c_7 : Ref sig .tc := ⟨.hbm, 131, rfl⟩
abbrev main_call3_v0 : Ref sig .tc := ⟨.hbm, 132, rfl⟩
abbrev main_v46 : Ref sig .tc := ⟨.hbm, 133, rfl⟩
abbrev main_c_8 : Ref sig .tc := ⟨.hbm, 134, rfl⟩
abbrev main_call4_v0 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x128_0 : S200000.BroadcastsInDim S200000x128 (![0] : Fin 1 → Fin S200000x128.rank)
  bcast_S_S200000x128 : S_.BroadcastsInDim S200000x128 (![] : Fin 0 → Fin S200000x128.rank)
  pads_S200000x128_S200704x128_07040_000 : S200000x128.Pads (![0, 0] : Fin 2 → Nat) ![704, 0] ![0, 0] S200704x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  inb_S4096_S4096_0 : ∀ a, (![0] : Fin 1 → Nat) a + S4096.size a ≤ S4096.size a
  h_S4096 : 0 < S4096.numel
  slices_S200704_S200000_0 : S200704.Slices ![0] S200000
  gather_S100000x128_S100000x1_S100000x128_1_0_n_n_0_1_1128_wf : GatherDims.WF S100000x128 S100000x1 S100000x128 [1] [0] [] [0] [] 1 ![1, 128]
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  gather_S100000x128_S200000x1_S200000x128_1_0_n_n_0_1_1128_wf : GatherDims.WF S100000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S200704x128.size a
  hwx2_0 : ∀ i : grid2.Coords, EltTy.bits .f32 = 32 ∨ (Rect.block (s := S200704x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S200704x128.size a
  hwx2_1 : ∀ i : grid2.Coords, EltTy.bits .f32 = 32 ∨ (Rect.block (s := S200704x128) S4096x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096.size a ≤ S200704.size a
  hwx2_2 : ∀ i : grid2.Coords, EltTy.bits .f32 = 32 ∨ (Rect.block (s := S200704) S4096.size (cc2_transform_2 i) (hinb2_2 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000 : Shape := ⟨1, ![100000]⟩
abbrev S2x1600000 : Shape := ⟨2, ![2, 1600000]⟩
abbrev S2x200000 : Shape := ⟨2, ![2, 200000]⟩
abbrev S100000x128 : Shape := ⟨2, ![100000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S1600000x1 : Shape := ⟨2, ![1600000, 1]⟩
abbrev S1600000x128 : Shape := ⟨2, ![1600000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 117
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S2x200000, .i32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S_, .f32⟩
  | .hbm, ⟨37, _⟩ => ⟨S1600000, .f32⟩
  | .hbm, ⟨38, _⟩ => ⟨S_, .f32⟩
  | .hbm, ⟨39, _⟩ => ⟨S100000, .f32⟩
  | .hbm, ⟨40, _⟩ => ⟨S1600000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S128x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S128x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S_, .f32⟩
  | .hbm, ⟨73, _⟩ => ⟨S1600000, .f32⟩
  | .hbm, ⟨74, _⟩ => ⟨S_, .f32⟩
  | .hbm, ⟨75, _⟩ => ⟨S100000, .f32⟩
  | .hbm, ⟨76, _⟩ => ⟨S1600000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S128x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S128x128, .f32⟩
  | .hbm, ⟨90, _⟩ => ⟨S100000x128, .f32⟩
  | .hbm, ⟨91, _⟩ => ⟨S100000x128, .f32⟩
  | .hbm, ⟨92, _⟩ => ⟨S1x200000, .i32⟩
  | .hbm, ⟨93, _⟩ => ⟨S200000, .i32⟩
  | .hbm, ⟨94, _⟩ => ⟨S1x200000, .i32⟩
  | .hbm, ⟨95, _⟩ => ⟨S200000, .i32⟩
  | .hbm, ⟨96, _⟩ => ⟨S_, .i32⟩
  | .hbm, ⟨97, _⟩ => ⟨S200000, .i32⟩
  | .hbm, ⟨98, _⟩ => ⟨S200000, .i1⟩
  | .hbm, ⟨99, _⟩ => ⟨S_, .i32⟩
  | .hbm, ⟨100, _⟩ => ⟨S200000, .i32⟩
  | .hbm, ⟨101, _⟩ => ⟨S200000, .i32⟩
  | .hbm, ⟨102, _⟩ => ⟨S200000, .i32⟩
  | .hbm, ⟨103, _⟩ => ⟨S200000x1, .i32⟩
  | .hbm, ⟨104, _⟩ => ⟨S200000x128, .f32⟩
  | .hbm, ⟨105, _⟩ => ⟨S_, .i32⟩
  | .hbm, ⟨106, _⟩ => ⟨S200000, .i32⟩
  | .hbm, ⟨107, _⟩ => ⟨S200000, .i1⟩
  | .hbm, ⟨108, _⟩ => ⟨S_, .i32⟩
  | .hbm, ⟨109, _⟩ => ⟨S200000, .i32⟩
  | .hbm, ⟨110, _⟩ => ⟨S200000, .i32⟩
  | .hbm, ⟨111, _⟩ => ⟨S200000, .i32⟩
  | .hbm, ⟨112, _⟩ => ⟨S200000x1, .i32⟩
  | .hbm, ⟨113, _⟩ => ⟨S200000x128, .f32⟩
  | .hbm, ⟨114, _⟩ => ⟨S200000x128, .f32⟩
  | .hbm, ⟨115, _⟩ => ⟨S_, .f32⟩
  | .hbm, ⟨116, _⟩ => ⟨S200000, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call0_cst : Ref sig .tc := ⟨.hbm, 56, rfl⟩
abbrev main_call0_v0 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_12 : Ref sig .tc := ⟨.hbm, 96, rfl⟩
abbrev main_v70 : Ref sig .tc := ⟨.hbm, 97, rfl⟩
abbrev main_v71 : Ref sig .tc := ⟨.hbm, 98, rfl⟩
abbrev main_c_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_16 : Ref sig .tc := ⟨.hbm, 115, rfl⟩
abbrev main_v85 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  reducesTo_S200000x128_S200000_d1 : S200000x128.ReducesTo [1] S200000
  h_S_ : 0 < S_.numel
  gather_S100000x128_S100000x1_S100000x128_1_0_n_n_0_1_1128_wf : GatherDims.WF S100000x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf

class Facts : Prop extends Facts₀ where

variable [Facts]
-- ==== Proof.Spec.lean ====
/-
  The two functions both programs compute, index by index, on the extended reals.

  One SAGE layer: row `r` of the result is `mean[r,:] · Wl[j,:] + bl[j] + x[r,:] · Wr[j,:]` at column `j` (two
  contractions over the 128 input features and the bias between them, in that order of addition), followed for the
  first layer by a maximum with zero.  The edge decoder: entry `e` is the zero word plus the sum over the 128
  features of the product of the two gathered rows.
-/
import Idealize.ShloMosaic.PureOps.Ideal
import Idealize.ShloMosaic.Lib.ValueIdx

noncomputable section

namespace Cert.Sage

open Idealize.ShloMosaic Idealize.ShloMosaic.ValueIdx

/-- The linear part of a layer at row `r`, column `j`. -/
def layerAt {n : Nat} (M X : FVec Ideal ⟨2, ![n, 128]⟩ .f32) (Wl : FVec Ideal ⟨2, ![128, 128]⟩ .f32)
    (bl : FVec Ideal ⟨1, ![128]⟩ .f32) (Wr : FVec Ideal ⟨2, ![128, 128]⟩ .f32) (r : Fin n) (j : Fin 128) : EReal :=
  ((∑ k : Fin 128, M (ix2 r k) * Wl (ix2 j k)) + bl (ix1 j)) + ∑ k : Fin 128, X (ix2 r k) * Wr (ix2 j k)

/-- A whole layer: the linear part, and where `relu` is set the maximum with the zero word. -/
def layer {n : Nat} (relu : Bool) (M X : FVec Ideal ⟨2, ![n, 128]⟩ .f32) (Wl : FVec Ideal ⟨2, ![128, 128]⟩ .f32)
    (bl : FVec Ideal ⟨1, ![128]⟩ .f32) (Wr : FVec Ideal ⟨2, ![128, 128]⟩ .f32) : FVec Ideal ⟨2, ![n, 128]⟩ .f32 :=
  fun i => if relu then max (layerAt M X Wl bl Wr (i 0) (i 1)) (Ideal.ofBits .f32 0x00000000#32)
    else layerAt M X Wl bl Wr (i 0) (i 1)

/-- The decoder at edge `e`: the zero word plus the row product summed over the features. -/
def decodeAt {n : Nat} (zs zd : FVec Ideal ⟨2, ![n, 128]⟩ .f32) (e : Fin n) : EReal :=
  Ideal.ofBits .f32 0x00000000#32 + ∑ k : Fin 128, zs (ix2 e k) * zd (ix2 e k)

/-- An index word that names a row of a table of 100000 rows. -/
def InRange (w : BitVec 32) : Prop := w.toNat < 100000

end Cert.Sage

end
-- ==== Proof.TakeFill.lean ====
/-
  Reading rows of a table by index words that are known to name rows.

  `jnp.take` in its default mode guards every read: it forms the mask "0 ≤ index ≤ 99999", reads the table with the
  clamping gather, and replaces the rows whose mask is clear by a fill word.  When every index word names a row of
  the table the mask is all ones and the guarded read IS the plain gather.  The certificate's precondition says
  exactly that of the node ids and of the label edges' end points.
-/
import proofs.«402641_j20693152432851_1_alg».proof.Pre_finite_inputs
import proofs.«402641_j20693152432851_1_alg».proof.Proof.Gen.Pre_finite_inputs
import proofs.«402641_j20693152432851_1_alg».proof.Proof.Spec
import Idealize.ShloMosaic.Lib.StableHlo.Predicate
import Idealize.ShloMosaic.Lib.ReduceAll
import Idealize.ShloMosaic.Lib.ValueIdx
import Idealize.ShloMosaic.Lib.Pipeline.Value

noncomputable section

namespace Cert.Sage

open Idealize.ShloMosaic Idealize.ShloMosaic.ValueIdx

/-! ## Words, folds and broadcasts -/

namespace TakeFill

open Idealize.ShloMosaic.StableHlo.Predicate in
/-- A word that names a row is not negative as a signed word, so the normalising select keeps it. -/
theorem norm_word (w : BitVec 32) (h : InRange w) :
    Scalar.select (IntOp.cmpi .slt w 0#32) (IntOp.addi w 100000#32) w = w := by
  have hw : w.toNat < 2 ^ 31 := by unfold InRange at h; omega
  have hc : ¬ IntOp.cmpi .slt w 0#32 = 1#1 := fun hc => by
    have := (slt_iff_toNat hw (by decide)).1 hc
    simp at this
  unfold Scalar.select
  exact if_neg hc

open Idealize.ShloMosaic.StableHlo.Predicate in
/-- A word that names a row passes both range tests: 0 ≤ w and w ≤ 99999 as signed words. -/
theorem mask_word (w : BitVec 32) (h : InRange w) :
    IntOp.andi (IntOp.cmpi .sge w 0#32) (IntOp.cmpi .sle w 99999#32) = 1#1 := by
  have hw : w.toNat < 2 ^ 31 := by unfold InRange at h; omega
  have h9 : (99999#32 : BitVec 32).toNat = 99999 := by decide
  refine IntOp.andi_eq_one.2 ⟨(sge_iff_toNat hw (by decide)).2 (by simp), (sle_iff_toNat hw (by decide)).2 ?_⟩
  rw [h9]; unfold InRange at h; omega

/-- The converse for the precondition's two tests: 0 ≤ w and w < 100000 as signed words bound the word's value. -/
theorem word_range (w : BitVec 32) (h1 : IntOp.cmpi .sge w 0#32 = 1#1) (h2 : IntOp.cmpi .slt w 100000#32 = 1#1) :
    InRange w := by
  have e0 : (0#32 : BitVec 32).toInt = 0 := by decide
  have e1 : (100000#32 : BitVec 32).toInt = 100000 := by decide
  simp only [IntOp.cmpi, StableHlo.Predicate.ofBool_eq_one_iff, BitVec.sle, BitVec.slt, decide_eq_true_eq, e0, e1] at h1 h2
  unfold InRange
  rw [BitVec.toInt_eq_toNat_cond] at h1 h2
  split at h1 <;> omega

/-- A left fold by `and` from 1 over words that are all 1 is 1. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and` from 1 of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-- Every element of a broadcast is an element of its operand. -/
theorem bcast_ind {s t : Shape} {α : Type} (dims : Fin s.rank → Fin t.rank) (h : s.BroadcastsInDim t dims) (x : s.Idx → α)
    (P : α → Prop) (hx : ∀ k, P (x k)) (j : t.Idx) : P (broadcastInDim t dims h x j) := hx _

/-- A select whose mask is a broadcast of ones is its first operand. -/
theorem select_bcast_ones {s t : Shape} {α : Type} (dims : Fin s.rank → Fin t.rank) (h : s.BroadcastsInDim t dims)
    (M : IVec s 1) (hM : ∀ k, M k = 1#1) (a b : t.Idx → α) : select (broadcastInDim t dims h M) a b = a := by
  funext i
  have hm : broadcastInDim t dims h M i = 1#1 := bcast_ind dims h M (fun v => v = 1#1) hM i
  rw [select_apply, hm, select_one]

end TakeFill

open TakeFill

/-! ## The four facts -/

/-- The guarded read of `n` rows is the plain gather when every index word names a row. `I` is the index column the
    programs build: the word itself, or the word plus 100000 where the word is negative, laid out as [n, 1]. -/
theorem take_fill {n : Nat} (tbl : FVec Ideal ⟨2, ![100000, 128]⟩ .f32) (idx : IVec ⟨1, ![n]⟩ 32)
    (hidx : ∀ i, InRange (idx i))
    (D : GatherDims ⟨2, ![100000, 128]⟩ ⟨2, ![n, 1]⟩ ⟨2, ![n, 128]⟩)
    (e0 : (⟨0, ![]⟩ : Shape).BroadcastsInDim ⟨1, ![n]⟩ ![])
    (e1 : (⟨1, ![n]⟩ : Shape).BroadcastsInDim ⟨2, ![n, 1]⟩ ![0])
    (e2 : (⟨0, ![]⟩ : Shape).BroadcastsInDim ⟨2, ![n, 1]⟩ ![])
    (e3 : (⟨1, ![1]⟩ : Shape).BroadcastsInDim ⟨2, ![1, 1]⟩ ![1])
    (e4 : (⟨2, ![1, 1]⟩ : Shape).BroadcastsInDim ⟨2, ![n, 1]⟩ ![0, 1])
    (e5 : (⟨2, ![n, 1]⟩ : Shape).ReducesTo [1] ⟨1, ![n]⟩)
    (e6 : 0 < (⟨0, ![]⟩ : Shape).numel)
    (e7 : (⟨1, ![n]⟩ : Shape).BroadcastsInDim ⟨2, ![n, 128]⟩ ![0])
    (e8 : (⟨0, ![]⟩ : Shape).BroadcastsInDim ⟨2, ![n, 128]⟩ ![]) :
    select (broadcastInDim ⟨2, ![n, 128]⟩ ![0] e7
        (Host.reduce IntOp.andi
          (andi
            (cmpi .sge
              (broadcastInDim ⟨2, ![n, 1]⟩ ![0] e1 (select (cmpi .slt idx (broadcastInDim ⟨1, ![n]⟩ ![] e0 (constantI ⟨0, ![]⟩ 32 0#32))) (addi idx (broadcastInDim ⟨1, ![n]⟩ ![] e0 (constantI ⟨0, ![]⟩ 32 100000#32))) idx))
              (broadcastInDim ⟨2, ![n, 1]⟩ ![] e2 (constantI ⟨0, ![]⟩ 32 0#32)))
            (cmpi .sle
              (broadcastInDim ⟨2, ![n, 1]⟩ ![0] e1 (select (cmpi .slt idx (broadcastInDim ⟨1, ![n]⟩ ![] e0 (constantI ⟨0, ![]⟩ 32 0#32))) (addi idx (broadcastInDim ⟨1, ![n]⟩ ![] e0 (constantI ⟨0, ![]⟩ 32 100000#32))) idx))
              (broadcastInDim ⟨2, ![n, 1]⟩ ![0, 1] e4 (broadcastInDim ⟨2, ![1, 1]⟩ ![1] e3 (constantI ⟨1, ![1]⟩ 32 99999#32)))))
          (constantI ⟨0, ![]⟩ 1 1#1) e5 e6))
      (Host.gather D tbl
        (broadcastInDim ⟨2, ![n, 1]⟩ ![0] e1 (select (cmpi .slt idx (broadcastInDim ⟨1, ![n]⟩ ![] e0 (constantI ⟨0, ![]⟩ 32 0#32))) (addi idx (broadcastInDim ⟨1, ![n]⟩ ![] e0 (constantI ⟨0, ![]⟩ 32 100000#32))) idx)))
      (broadcastInDim ⟨2, ![n, 128]⟩ ![] e8 (constant (F := Ideal) ⟨0, ![]⟩ .f32 0x7FC00000#32))
    = Host.gather D tbl
        (broadcastInDim ⟨2, ![n, 1]⟩ ![0] e1 (select (cmpi .slt idx (broadcastInDim ⟨1, ![n]⟩ ![] e0 (constantI ⟨0, ![]⟩ 32 0#32))) (addi idx (broadcastInDim ⟨1, ![n]⟩ ![] e0 (constantI ⟨0, ![]⟩ 32 100000#32))) idx)) := by
  -- the normalised index word is the index word itself
  have hW : ∀ k, (select (cmpi .slt idx (broadcastInDim ⟨1, ![n]⟩ ![] e0 (constantI ⟨0, ![]⟩ 32 0#32)))
      (addi idx (broadcastInDim ⟨1, ![n]⟩ ![] e0 (constantI ⟨0, ![]⟩ 32 100000#32))) idx) k = idx k :=
    fun k => norm_word (idx k) (hidx k)
  -- the mask is a broadcast of a row-wise `and` of an [n, 1] column of ones
  refine select_bcast_ones _ e7 _ (fun k => ?_) _ _
  refine reduce_andi_ones _ _ e5 e6 (fun m => ?_) rfl k
  -- one entry of the column: both range tests of the normalised word, the bounds being constants
  refine bcast_ind _ e1 _ (fun v => IntOp.andi (IntOp.cmpi .sge v 0#32) (IntOp.cmpi .sle v 99999#32) = 1#1) (fun k' => ?_) m
  rw [hW]
  exact mask_word _ (hidx k')

open Cert.Pre_finite_inputs in
/-- The precondition's conjunct on the node ids: every word names a row. -/
theorem nid_inRange (a0 : IVec S100000 32) (a1 : IVec S2x1600000 32) (a2 : IVec S2x200000 32)
    (a3 : FVec Ideal S100000x128 .f32) (a4 : FVec Ideal S128x128 .f32) (a5 : FVec Ideal S128 .f32)
    (a6 : FVec Ideal S128x128 .f32) (a7 : FVec Ideal S128x128 .f32) (a8 : FVec Ideal S128 .f32) (a9 : FVec Ideal S128x128 .f32)
    (h : Cert.Pre_finite_inputs.fn (F := Ideal) a0 a1 a2 a3 a4 a5 a6 a7 a8 a9 = fun _ => 1#1) :
    ∀ i : S100000.Idx, InRange (a0 i) := by
  intro i
  haveI : Subsingleton S_.Idx := ⟨fun a b => funext fun d => d.elim0⟩
  have h0 : Cert.Pre_finite_inputs.fn (F := Ideal) a0 a1 a2 a3 a4 a5 a6 a7 a8 a9 ix0 = 1#1 := congrFun h ix0
  unfold Cert.Pre_finite_inputs.fn Cert.Pre_finite_inputs.fn_part1 Cert.Pre_finite_inputs.fn_part2 at h0
  -- the result is ((floats ∧ all-of-a0) ∧ all-of-a2): keep the middle conjunct
  obtain ⟨h40, -⟩ := IntOp.andi_eq_one.1 h0
  obtain ⟨-, h39⟩ := IntOp.andi_eq_one.1 h40
  have hi := Host.reduce_andi_all _ _ _ _ ix0 h39 i
  obtain ⟨hge, hlt⟩ := IntOp.andi_eq_one.1 hi
  exact word_range (a0 i) hge hlt

open Cert.Pre_finite_inputs in
/-- The precondition's conjunct on the label edges: every end point names a row. -/
theorem eli_inRange (a0 : IVec S100000 32) (a1 : IVec S2x1600000 32) (a2 : IVec S2x200000 32)
    (a3 : FVec Ideal S100000x128 .f32) (a4 : FVec Ideal S128x128 .f32) (a5 : FVec Ideal S128 .f32)
    (a6 : FVec Ideal S128x128 .f32) (a7 : FVec Ideal S128x128 .f32) (a8 : FVec Ideal S128 .f32) (a9 : FVec Ideal S128x128 .f32)
    (h : Cert.Pre_finite_inputs.fn (F := Ideal) a0 a1 a2 a3 a4 a5 a6 a7 a8 a9 = fun _ => 1#1) :
    ∀ i : S2x200000.Idx, InRange (a2 i) := by
  intro i
  haveI : Subsingleton S_.Idx := ⟨fun a b => funext fun d => d.elim0⟩
  have h0 : Cert.Pre_finite_inputs.fn (F := Ideal) a0 a1 a2 a3 a4 a5 a6 a7 a8 a9 ix0 = 1#1 := congrFun h ix0
  unfold Cert.Pre_finite_inputs.fn Cert.Pre_finite_inputs.fn_part1 Cert.Pre_finite_inputs.fn_part2 at h0
  -- the result is ((floats ∧ all-of-a0) ∧ all-of-a2): keep the last conjunct
  obtain ⟨-, h46⟩ := IntOp.andi_eq_one.1 h0
  have hi := Host.reduce_andi_all _ _ _ _ ix0 h46 i
  obtain ⟨hge, hlt⟩ := IntOp.andi_eq_one.1 hi
  exact word_range (a2 i) hge hlt

/-- Row `r` of the label edges, taken by a slice and a reshape, is made of words of the label edges. -/
theorem row_inRange (a2 : IVec ⟨2, ![2, 200000]⟩ 32) (h2 : ∀ i, InRange (a2 i)) (r : Nat)
    (hs : (⟨2, ![2, 200000]⟩ : Shape).Slices ![r, 0] ⟨2, ![1, 200000]⟩)
    (hc : (⟨2, ![1, 200000]⟩ : Shape).ShapeCasts ⟨1, ![200000]⟩) :
    ∀ i, InRange (shapeCast ⟨1, ![200000]⟩ (extractStridedSlice ⟨2, ![1, 200000]⟩ ![r, 0] a2 hs) hc i) := by
  -- a slice and a reshape read the operand at some index: the word is a word of the label edges
  intro i
  exact h2 _

end Cert.Sage

end
-- ==== Proof.Walk1.lean ====
import proofs.«402641_j20693152432851_1_alg».proof.Proof.Gen.KernelIdeal.Frame
import proofs.«402641_j20693152432851_1_alg».proof.Proof.Gen.ReferenceIdeal.Read
import proofs.«402641_j20693152432851_1_alg».proof.Proof.TakeFill
import Idealize.ShloMosaic.Lib.StableHlo.Run
import Idealize.ShloMosaic.PureOps.Ideal

set_option maxRecDepth 16384

noncomputable section

/-!
  The buffer contents at the entry of the first pallas_call, read back through the three host stretches before it:
  the looked-up features, the mean of the neighbours' features, the reshaped bias, the edge end points and the
  degree column are the reference's own stages of the same arguments.
-/

namespace Cert.KernelIdeal.Walk

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A buffer that no operation of a host stretch writes holds after the stretch what it held before. -/
macro "skip_stretch" : tactic => `(tactic| exact StableHlo.after_of_forall_not_mem _ _ (List.forall_iff_forall_mem.mp (by
  simp only [hostOps0, hostOps0_1, hostOps0_2, hostOps1, hostOps2, hostOps2_1, hostOps2_2, hostOps2_3, hostOps2_4, hostOps2_5,
    hostOps2_6, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- Walk a buffer that nothing writes back to the launch memory. -/
macro "walk_back" : tactic => `(tactic| (
  repeat (first
    | exact rfl
    | refine Eq.trans (W14_of_ne _ _ _ _ (by decide)) ?_
    | refine Eq.trans (W6_of_ne _ _ _ _ (by decide)) ?_
    | refine Eq.trans (W4_of_ne _ _ _ _ (by decide)) ?_
    | refine Eq.trans (by skip_stretch : StableHlo.after _ _ _ = _) ?_)))

/-! ## The arguments at the boundaries where they are read -/

theorem W1_arg0 (c : Dev nD) : W1 m ρ c (Proc.devRef .tc main_arg0) = (m ((c : Thread nD τ).loc main_arg0)) := by walk_back
theorem W1_arg3 (c : Dev nD) : W1 m ρ c (Proc.devRef .tc main_arg3) = (m ((c : Thread nD τ).loc main_arg3)) := by walk_back
theorem W2_arg5 (c : Dev nD) : W2 m ρ c (Proc.devRef .tc main_arg5) = (m ((c : Thread nD τ).loc main_arg5)) := by walk_back
theorem W3_arg4 (c : Dev nD) : W3 m ρ c (Proc.devRef .tc main_arg4) = (m ((c : Thread nD τ).loc main_arg4)) := by walk_back
theorem W3_arg6 (c : Dev nD) : W3 m ρ c (Proc.devRef .tc main_arg6) = (m ((c : Thread nD τ).loc main_arg6)) := by walk_back

/-! ## The edge end points (the two rows of the edge list) -/

theorem W1_src (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  rfl

theorem W1_dst (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

theorem W2_src (c : Dev nD) : W2 m ρ c (Proc.devRef .tc main_v1) = Cert.ReferenceIdeal.Read.val_main_v1 (F := Ideal) (m ((c : Thread nD τ).loc main_arg1)) :=
  (by skip_stretch : StableHlo.after hostOps0_1 (W1 m ρ c) (Proc.devRef .tc main_v1) = _).trans (W1_src m ρ c)

theorem W2_dst (c : Dev nD) : W2 m ρ c (Proc.devRef .tc main_v3) = Cert.ReferenceIdeal.Read.val_main_v3 (F := Ideal) (m ((c : Thread nD τ).loc main_arg1)) :=
  (by skip_stretch : StableHlo.after hostOps0_1 (W1 m ρ c) (Proc.devRef .tc main_v3) = _).trans (W1_dst m ρ c)

theorem W3_src (c : Dev nD) : W3 m ρ c (Proc.devRef .tc main_v1) = Cert.ReferenceIdeal.Read.val_main_v1 (F := Ideal) (m ((c : Thread nD τ).loc main_arg1)) :=
  (by skip_stretch : StableHlo.after hostOps0_2 (W2 m ρ c) (Proc.devRef .tc main_v1) = _).trans (W2_src m ρ c)

theorem W3_dst (c : Dev nD) : W3 m ρ c (Proc.devRef .tc main_v3) = Cert.ReferenceIdeal.Read.val_main_v3 (F := Ideal) (m ((c : Thread nD τ).loc main_arg1)) :=
  (by skip_stretch : StableHlo.after hostOps0_2 (W2 m ρ c) (Proc.devRef .tc main_v3) = _).trans (W2_dst m ρ c)

/-! ## The looked-up features: the guarded read is the reference's gather -/

set_option maxHeartbeats 2000000 in
theorem W2_x (c : Dev nD) (h0 : ∀ i, Cert.Sage.InRange (((m ((c : Thread nD τ).loc main_arg0)) : IVec S100000 32) i)) :
    W2 m ρ c (Proc.devRef .tc main_v4) = Cert.ReferenceIdeal.Read.val_main_v10 (F := Ideal) (m ((c : Thread nD τ).loc main_arg0)) (m ((c : Thread nD τ).loc main_arg3)) := by
  show StableHlo.after hostOps0_1 (W1 m ρ c) (Proc.devRef .tc main_v4) = _
  after_results_simp
  simp only [TRef.toBuf, TRef.ofBuf, cast_eq]
  refine (Cert.Sage.take_fill (n := 100000) (m ((c : Thread nD τ).loc main_arg3)) (m ((c : Thread nD τ).loc main_arg0)) h0 _ _ _ _ _ _ _ _ _ _).trans ?_
  rfl

theorem W3_x (c : Dev nD) (h0 : ∀ i, Cert.Sage.InRange (((m ((c : Thread nD τ).loc main_arg0)) : IVec S100000 32) i)) :
    W3 m ρ c (Proc.devRef .tc main_v4) = Cert.ReferenceIdeal.Read.val_main_v10 (F := Ideal) (m ((c : Thread nD τ).loc main_arg0)) (m ((c : Thread nD τ).loc main_arg3)) :=
  (by skip_stretch : StableHlo.after hostOps0_2 (W2 m ρ c) (Proc.devRef .tc main_v4) = _).trans (W2_x m ρ c h0)

/-! ## The mean of the neighbours' features, the degree column, the bias -/

set_option maxHeartbeats 2000000 in
theorem W3_mean (c : Dev nD) (h0 : ∀ i, Cert.Sage.InRange (((m ((c : Thread nD τ).loc main_arg0)) : IVec S100000 32) i)) :
    W3 m ρ c (Proc.devRef .tc main_v23) = Cert.ReferenceIdeal.Read.val_main_v29 (F := Ideal) (m ((c : Thread nD τ).loc main_arg0)) (m ((c : Thread nD τ).loc main_arg1)) (m ((c : Thread nD τ).loc main_arg3)) := by
  show StableHlo.after hostOps0_2 (W2 m ρ c) (Proc.devRef .tc main_v23) = _
  have hx := W2_x m ρ c h0
  have hs := W2_src m ρ c
  have hd := W2_dst m ρ c
  generalize W2 m ρ c = V at hx hs hd ⊢
  after_results_simp
  rw [hx, hs, hd]
  rfl

set_option maxHeartbeats 2000000 in
theorem W3_deg (c : Dev nD) :
    W3 m ρ c (Proc.devRef .tc main_v11) = Cert.ReferenceIdeal.Read.val_main_v27 (F := Ideal) (m ((c : Thread nD τ).loc main_arg1)) := by
  show StableHlo.after hostOps0_2 (W2 m ρ c) (Proc.devRef .tc main_v11) = _
  have hd := W2_dst m ρ c
  generalize W2 m ρ c = V at hd ⊢
  after_results_simp
  rw [hd]
  rfl

set_option maxHeartbeats 2000000 in
theorem W3_b (c : Dev nD) :
    W3 m ρ c (Proc.devRef .tc main_v24) = shapeCast S1x128 (m ((c : Thread nD τ).loc main_arg5)) shapeCasts_S128_S1x128 := by
  show StableHlo.after hostOps0_2 (W2 m ρ c) (Proc.devRef .tc main_v24) = _
  have h5 := W2_arg5 m ρ c
  generalize W2 m ρ c = V at h5 ⊢
  after_results_simp
  rw [h5]
  rfl

end Cert.KernelIdeal.Walk

end
-- ==== Proof.KLayer.lean ====
/-
  What the two SAGE-layer pallas_calls leave in their output arrays, as whole-array functions of the arrays they
  find at their entry: block `t` of the output holds rows `5000 t … 5000 t + 4999` of the layer.

  The body stores one payload: two contractions over the 128 features (a row of each row operand against a row of
  its weight, the weight being read transposed), the bias row broadcast between them, and for the first layer a
  maximum with the zero word.  At the extended reals the rounding to the narrow format is the identity and a
  contraction into the zero accumulator is the plain sum, so the payload at `(p, q)` is the layer's formula on the
  blocks; the blocks of the row operands at point `t` are rows `5000 t + p`, the other windows are whole arrays,
  and the 20 blocks of the result tile its 100000 rows.
-/
import proofs.«402641_j20693152432851_1_alg».proof.Proof.Gen.KernelIdeal.Frame
import proofs.«402641_j20693152432851_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LayerValue

open Idealize.ShloMosaic Idealize.ShloMosaic.TcCoe Idealize.ShloMosaic.ValueIdx Idealize.SL.Sem
open Cert.KernelIdeal Cert.KernelIdeal.Gen

/-! ## One contraction of the body read at an index

Both products of the body contract axis 1 of a `[5000,128]` block with axis 0 of a `[128,128]` matrix into the zero
accumulator, so the entry at `(p, q)` is the sum over `k` of `lhs (p, k) * rhs (k, q)`. -/

theorem dot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of the body into the zero accumulator, at row `p` and column `q`. -/
theorem matmul_at (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dot_lhs_0 _ _
    | ⟨1, _⟩ => exact (dot_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot_rhs_0 _ _).trans hk
    | ⟨1, _⟩ => exact dot_rhs_1 _ _)
  rw [el, er]

/-- A weight rounded and transposed reads, at `(k, q)`, the weight at `(q, k)`. -/
theorem weightT_at (w : Vec Ideal S128x128 .f32) (k q : Fin 128) :
    transpose S128x128 [1, 0] (truncf (F := Ideal) .bf16 w bitsLt_bf16_f32) transposes_S128x128_p1_0_S128x128 (ix2 k q) = w (ix2 q k) :=
  transpose_ix2_apply (truncf (F := Ideal) .bf16 w bitsLt_bf16_f32) transposes_S128x128_p1_0_S128x128 k q

/-! ## The body's payload at an index -/

/-- The linear part the body stores, at row `p` of the block and column `q`: the row of the first block against row `q` of
    the first weight, the bias at `q`, the row of the second block against row `q` of the second weight. -/
theorem pay_lin_at (x0 x1 : Vec Ideal S5000x128 .f32) (wl wr : Vec Ideal S128x128 .f32) (b : Vec Ideal S1x128 .f32)
    (p : Fin 5000) (q : Fin 128) :
    k1_pay1 (F := Ideal) x0 x1 wl wr b (ix2 p q)
      = ((∑ k : Fin 128, x0 (ix2 p k) * wl (ix2 q k)) + b (ix2 (0 : Fin 1) q)) + ∑ k : Fin 128, x1 (ix2 p k) * wr (ix2 q k) := by
  unfold k1_pay1
  dsimp only
  rw [addf_apply, addf_apply, matmul_at, matmul_at, broadcastTo_1b_ab_apply, shapeCast_self x0, shapeCast_self x1, shapeCast_self b]
  refine congrArg₂ (· + ·) (congrArg₂ (· + ·) (Finset.sum_congr rfl fun k _ => ?_) rfl) (Finset.sum_congr rfl fun k _ => ?_)
  · exact congrArg (x0 (ix2 p k) * ·) (weightT_at wl k q)
  · exact congrArg (x1 (ix2 p k) * ·) (weightT_at wr k q)

/-! ## A block of the layer, over variables

If two `[5000,128]` blocks are rows `5000 n …` of two arrays, the weights' blocks are the weights and the bias's block is the
bias reshaped to one row, then the payload at `y` of the block is the layer at the index `i` that `y` has in the array. -/

theorem hz : (![0, 0] : Fin 2 → Nat) = fun _ => 0 := funext fun a => by fin_cases a <;> rfl

theorem blk_lin (M X : FVec Ideal S100000x128 .f32) (Wl Wr : FVec Ideal S128x128 .f32) (bl : FVec Ideal S128 .f32)
    (x0 x1 : Vec Ideal S5000x128 .f32) (wl wr : Vec Ideal S128x128 .f32) (b : Vec Ideal S1x128 .f32)
    (n : Nat) (y : S5000x128.Idx) (i : S100000x128.Idx)
    (hi0 : (i 0).val = n * 5000 + (y 0).val) (hi1 : (i 1).val = (y 1).val)
    (h0 : ∀ (y' : S5000x128.Idx) (i' : S100000x128.Idx), (i' 0).val = n * 5000 + (y' 0).val → (i' 1).val = (y' 1).val → x0 y' = M i')
    (h1 : ∀ (y' : S5000x128.Idx) (i' : S100000x128.Idx), (i' 0).val = n * 5000 + (y' 0).val → (i' 1).val = (y' 1).val → x1 y' = X i')
    (hwl : wl = Wl) (hwr : wr = Wr) (hb : b = shapeCast S1x128 bl shapeCasts_S128_S1x128) :
    k1_pay1 (F := Ideal) x0 x1 wl wr b y = Cert.Sage.layer false M X Wl bl Wr i := by
  subst hwl hwr hb
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi1
  rw [pay_lin_at]
  show _ = Cert.Sage.layerAt M X wl bl wr r q'
  unfold Cert.Sage.layerAt
  refine congrArg₂ (· + ·) (congrArg₂ (· + ·) (Finset.sum_congr rfl fun k _ => ?_) ?_) (Finset.sum_congr rfl fun k _ => ?_)
  · rw [h0 (ix2 p k) (ix2 r k) hi0 rfl]
  · exact shapeCast_a_1a_apply bl shapeCasts_S128_S1x128 0 q'
  · rw [h1 (ix2 p k) (ix2 r k) hi0 rfl]

theorem blk_relu (M X : FVec Ideal S100000x128 .f32) (Wl Wr : FVec Ideal S128x128 .f32) (bl : FVec Ideal S128 .f32)
    (x0 x1 : Vec Ideal S5000x128 .f32) (wl wr : Vec Ideal S128x128 .f32) (b : Vec Ideal S1x128 .f32)
    (n : Nat) (y : S5000x128.Idx) (i : S100000x128.Idx)
    (hi0 : (i 0).val = n * 5000 + (y 0).val) (hi1 : (i 1).val = (y 1).val)
    (h0 : ∀ (y' : S5000x128.Idx) (i' : S100000x128.Idx), (i' 0).val = n * 5000 + (y' 0).val → (i' 1).val = (y' 1).val → x0 y' = M i')
    (h1 : ∀ (y' : S5000x128.Idx) (i' : S100000x128.Idx), (i' 0).val = n * 5000 + (y' 0).val → (i' 1).val = (y' 1).val → x1 y' = X i')
    (hwl : wl = Wl) (hwr : wr = Wr) (hb : b = shapeCast S1x128 bl shapeCasts_S128_S1x128) :
    k0_pay1 (F := Ideal) x0 x1 wl wr b y = Cert.Sage.layer true M X Wl bl Wr i := by
  have e : k0_pay1 (F := Ideal) x0 x1 wl wr b
      = maximumf (k1_pay1 (F := Ideal) x0 x1 wl wr b) (broadcast S5000x128 (Scalar.ofBits (F := Ideal) .f32 0x00000000#32)) := rfl
  rw [e, maximumf_apply, blk_lin M X Wl Wr bl x0 x1 wl wr b n y i hi0 hi1 h0 h1 hwl hwr hb]
  rfl

variable (V : (c : Dev nD) → (b : Ref sig .tc) → Buf (Elt Ideal) ((c : Thread nD τ).loc b))

/-! ## Region 0: blocks as rows of the arrays

The grid has 20 points. At point `t` the windows of the two row operands and of the result are rows `5000 t … 5000 t + 4999`
of their arrays; the two weights' and the bias's windows are their whole arrays at every point. -/

/-- The printed index maps of region 0, decided over its 20 points. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first row operand's block at point `t`, at `y`, is the array at row `5000 t + y 0`, column `y 1`. -/
theorem iblk0_0_at (c : Dev nD) (t : Fin cfg0.N) (y : S5000x128.Idx) (i : S100000x128.Idx)
    (hi0 : (i 0).val = t.val * 5000 + (y 0).val) (hi1 : (i 1).val = (y 1).val) :
    (iblk0 V c 0 t : Vec Ideal S5000x128 .f32) y = (V c main_v23 : FVec Ideal S100000x128 .f32) i := by
  obtain ⟨e0, e1, -⟩ := idx_facts0 t
  unfold iblk0
  rw [View.read_apply]
  show (V c main_v23 : FVec Ideal S100000x128 .f32) (((cfg0.win 0).blk t).view.emb y) = _
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The second row operand's block likewise. -/
theorem iblk0_1_at (c : Dev nD) (t : Fin cfg0.N) (y : S5000x128.Idx) (i : S100000x128.Idx)
    (hi0 : (i 0).val = t.val * 5000 + (y 0).val) (hi1 : (i 1).val = (y 1).val) :
    (iblk0 V c 1 t : Vec Ideal S5000x128 .f32) y = (V c main_v4 : FVec Ideal S100000x128 .f32) i := by
  obtain ⟨-, -, e0, e1, -⟩ := idx_facts0 t
  unfold iblk0
  rw [View.read_apply]
  show (V c main_v4 : FVec Ideal S100000x128 .f32) (((cfg0.win 1).blk t).view.emb y) = _
  refine congrArg _ (funext fun a => Fin.ext ?_)
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- The first weight's block is the whole weight at every point. -/
theorem iblk0_2_eq (c : Dev nD) (t : Fin cfg0.N) :
    (iblk0 V c 2 t : Vec Ideal S128x128 .f32) = (V c main_arg4 : FVec Ideal S128x128 .f32) := by
  obtain ⟨-, -, -, -, e0, e1, -⟩ := idx_facts0 t
  funext y
  unfold iblk0
  rw [View.read_apply]
  show (V c main_arg4 : FVec Ideal S128x128 .f32) (((cfg0.win 2).blk t).view.emb y) = _
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias's block is the whole `[1,128]` bias at every point. -/
theorem iblk0_3_eq (c : Dev nD) (t : Fin cfg0.N) :
    (iblk0 V c 3 t : Vec Ideal S1x128 .f32) = (V c main_v24 : FVec Ideal S1x128 .f32) := by
  obtain ⟨-, -, -, -, -, -, e0, e1, -⟩ := idx_facts0 t
  funext y
  unfold iblk0
  rw [View.read_apply]
  show (V c main_v24 : FVec Ideal S1x128 .f32) (((cfg0.win 3).blk t).view.emb y) = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second weight's block is the whole weight at every point. -/
theorem iblk0_4_eq (c : Dev nD) (t : Fin cfg0.N) :
    (iblk0 V c 4 t : Vec Ideal S128x128 .f32) = (V c main_arg6 : FVec Ideal S128x128 .f32) := by
  obtain ⟨-, -, -, -, -, -, -, -, e0, e1, -⟩ := idx_facts0 t
  funext y
  unfold iblk0
  rw [View.read_apply]
  show (V c main_arg6 : FVec Ideal S128x128 .f32) (((cfg0.win 4).blk t).view.emb y) = _
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- What point `t` of region 0 writes back is block `t` of the layer of the arrays the region finds. -/
theorem flushed0_eq (c : Dev nD) (bl : FVec Ideal S128 .f32)
    (hb : V c main_v24 = shapeCast S1x128 bl shapeCasts_S128_S1x128) (t : Fin cfg0.N) :
    (dat0 (F := Ideal) V c).flushed 5 t
      = ((cfg0.win 5).blk t).view.read (Elt Ideal)
          (Cert.Sage.layer true (V c main_v23) (V c main_v4) (V c main_arg4) bl (V c main_arg6)) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts0 t
  funext j
  rw [View.read_apply]
  refine blk_relu (V c main_v23) (V c main_v4) (V c main_arg4) (V c main_arg6) bl (iblk0 V c 0 t) (iblk0 V c 1 t) (iblk0 V c 2 t) (iblk0 V c 4 t) (iblk0 V c 3 t) t.val j (((cfg0.win 5).blk t).view.emb j) ?_ ?_ (iblk0_0_at V c t) (iblk0_1_at V c t) (iblk0_2_eq V c t) (iblk0_4_eq V c t) ((iblk0_3_eq V c t).trans hb)
  · show win0_5.index t (0 : Fin 2) * 5000 + 1 * (j 0).val = t.val * 5000 + (j 0).val; omega
  · show win0_5.index t (1 : Fin 2) * 128 + 1 * (j 1).val = (j 1).val; omega

/-- An index of the result array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Row `r` of the result is in the block of point `r / 5000`, which is written back. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := idx_facts0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- Region 0 (layer 0, with the maximum against zero): its output array after the run. -/
theorem region0_value (c : Dev nD) (bl : FVec Ideal S128 .f32)
    (hb : V c main_v24 = shapeCast S1x128 bl shapeCasts_S128_S1x128) :
    (dat0 (F := Ideal) V c).arrAt 5 cfg0.N
      = Cert.Sage.layer true (V c main_v23) (V c main_v4) (V c main_arg4) bl (V c main_arg6) :=
  (dat0 (F := Ideal) V c).arrAt_eq_of_cover 5
    (Cert.Sage.layer true (V c main_v23) (V c main_v4) (V c main_arg4) bl (V c main_arg6))
    (fun t _ => flushed0_eq V c bl hb t) cover0

/-! ## Region 1: blocks as rows of the arrays

The grid has 20 points. At point `t` the windows of the two row operands and of the result are rows `5000 t … 5000 t + 4999`
of their arrays; the two weights' and the bias's windows are their whole arrays at every point. -/

/-- The printed index maps of region 1, decided over its 20 points. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first row operand's block at point `t`, at `y`, is the array at row `5000 t + y 0`, column `y 1`. -/
theorem iblk1_0_at (c : Dev nD) (t : Fin cfg1.N) (y : S5000x128.Idx) (i : S100000x128.Idx)
    (hi0 : (i 0).val = t.val * 5000 + (y 0).val) (hi1 : (i 1).val = (y 1).val) :
    (iblk1 V c 0 t : Vec Ideal S5000x128 .f32) y = (V c main_v37 : FVec Ideal S100000x128 .f32) i := by
  obtain ⟨e0, e1, -⟩ := idx_facts1 t
  unfold iblk1
  rw [View.read_apply]
  show (V c main_v37 : FVec Ideal S100000x128 .f32) (((cfg1.win 0).blk t).view.emb y) = _
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The second row operand's block likewise. -/
theorem iblk1_1_at (c : Dev nD) (t : Fin cfg1.N) (y : S5000x128.Idx) (i : S100000x128.Idx)
    (hi0 : (i 0).val = t.val * 5000 + (y 0).val) (hi1 : (i 1).val = (y 1).val) :
    (iblk1 V c 1 t : Vec Ideal S5000x128 .f32) y = (V c main_v25 : FVec Ideal S100000x128 .f32) i := by
  obtain ⟨-, -, e0, e1, -⟩ := idx_facts1 t
  unfold iblk1
  rw [View.read_apply]
  show (V c main_v25 : FVec Ideal S100000x128 .f32) (((cfg1.win 1).blk t).view.emb y) = _
  refine congrArg _ (funext fun a => Fin.ext ?_)
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- The first weight's block is the whole weight at every point. -/
theorem iblk1_2_eq (c : Dev nD) (t : Fin cfg1.N) :
    (iblk1 V c 2 t : Vec Ideal S128x128 .f32) = (V c main_arg7 : FVec Ideal S128x128 .f32) := by
  obtain ⟨-, -, -, -, e0, e1, -⟩ := idx_facts1 t
  funext y
  unfold iblk1
  rw [View.read_apply]
  show (V c main_arg7 : FVec Ideal S128x128 .f32) (((cfg1.win 2).blk t).view.emb y) = _
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias's block is the whole `[1,128]` bias at every point. -/
theorem iblk1_3_eq (c : Dev nD) (t : Fin cfg1.N) :
    (iblk1 V c 3 t : Vec Ideal S1x128 .f32) = (V c main_v38 : FVec Ideal S1x128 .f32) := by
  obtain ⟨-, -, -, -, -, -, e0, e1, -⟩ := idx_facts1 t
  funext y
  unfold iblk1
  rw [View.read_apply]
  show (V c main_v38 : FVec Ideal S1x128 .f32) (((cfg1.win 3).blk t).view.emb y) = _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second weight's block is the whole weight at every point. -/
theorem iblk1_4_eq (c : Dev nD) (t : Fin cfg1.N) :
    (iblk1 V c 4 t : Vec Ideal S128x128 .f32) = (V c main_arg9 : FVec Ideal S128x128 .f32) := by
  obtain ⟨-, -, -, -, -, -, -, -, e0, e1, -⟩ := idx_facts1 t
  funext y
  unfold iblk1
  rw [View.read_apply]
  show (V c main_arg9 : FVec Ideal S128x128 .f32) (((cfg1.win 4).blk t).view.emb y) = _
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- What point `t` of region 1 writes back is block `t` of the layer of the arrays the region finds. -/
theorem flushed1_eq (c : Dev nD) (bl : FVec Ideal S128 .f32)
    (hb : V c main_v38 = shapeCast S1x128 bl shapeCasts_S128_S1x128) (t : Fin cfg1.N) :
    (dat1 (F := Ideal) V c).flushed 5 t
      = ((cfg1.win 5).blk t).view.read (Elt Ideal)
          (Cert.Sage.layer false (V c main_v37) (V c main_v25) (V c main_arg7) bl (V c main_arg9)) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts1 t
  funext j
  rw [View.read_apply]
  refine blk_lin (V c main_v37) (V c main_v25) (V c main_arg7) (V c main_arg9) bl (iblk1 V c 0 t) (iblk1 V c 1 t) (iblk1 V c 2 t) (iblk1 V c 4 t) (iblk1 V c 3 t) t.val j (((cfg1.win 5).blk t).view.emb j) ?_ ?_ (iblk1_0_at V c t) (iblk1_1_at V c t) (iblk1_2_eq V c t) (iblk1_4_eq V c t) ((iblk1_3_eq V c t).trans hb)
  · show win1_5.index t (0 : Fin 2) * 5000 + 1 * (j 0).val = t.val * 5000 + (j 0).val; omega
  · show win1_5.index t (1 : Fin 2) * 128 + 1 * (j 1).val = (j 1).val; omega

/-- An index of the result array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- Row `r` of the result is in the block of point `r / 5000`, which is written back. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- Region 1 (layer 1, no maximum): its output array after the run. -/
theorem region1_value (c : Dev nD) (bl : FVec Ideal S128 .f32)
    (hb : V c main_v38 = shapeCast S1x128 bl shapeCasts_S128_S1x128) :
    (dat1 (F := Ideal) V c).arrAt 5 cfg1.N
      = Cert.Sage.layer false (V c main_v37) (V c main_v25) (V c main_arg7) bl (V c main_arg9) :=
  (dat1 (F := Ideal) V c).arrAt_eq_of_cover 5
    (Cert.Sage.layer false (V c main_v37) (V c main_v25) (V c main_arg7) bl (V c main_arg9))
    (fun t _ => flushed1_eq V c bl hb t) cover1

end Cert.KernelIdeal.LayerValue

end
-- ==== Proof.Walk2.lean ====
import proofs.«402641_j20693152432851_1_alg».proof.Proof.Gen.KernelIdeal.Frame
import proofs.«402641_j20693152432851_1_alg».proof.Proof.Gen.ReferenceIdeal.Read
import proofs.«402641_j20693152432851_1_alg».proof.Proof.TakeFill
import proofs.«402641_j20693152432851_1_alg».proof.Proof.Walk1
import proofs.«402641_j20693152432851_1_alg».proof.Proof.KLayer
import Idealize.ShloMosaic.Lib.StableHlo.Run
import Idealize.ShloMosaic.PureOps.Ideal

set_option maxRecDepth 16384

noncomputable section

/-!
  The first layer's pallas_call, the host stretch between the two layers, and the second layer's pallas_call, each
  read as a function of the buffer contents at its entry: a layer call leaves the specification's layer of its five
  operands in its output array; the stretch between them computes the mean of the neighbours' hidden features over
  the same edges and degree column, and reshapes the second bias.
-/

namespace Cert.KernelIdeal.Walk

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The first pallas_call: its output array after the call, from the five arrays it finds at its entry. -/
theorem region0_out (c : Dev nD) (M X : FVec Ideal S100000x128 .f32) (Wl Wr : FVec Ideal S128x128 .f32) (bl : FVec Ideal S128 .f32)
    (hm : W3 m ρ c (Proc.devRef .tc main_v23) = M) (hx : W3 m ρ c (Proc.devRef .tc main_v4) = X)
    (hb : W3 m ρ c (Proc.devRef .tc main_v24) = shapeCast S1x128 bl shapeCasts_S128_S1x128)
    (h4 : W3 m ρ c (Proc.devRef .tc main_arg4) = Wl) (h6 : W3 m ρ c (Proc.devRef .tc main_arg6) = Wr) :
    W4 m ρ c (Proc.devRef .tc main_v25) = Cert.Sage.layer true M X Wl bl Wr := by
  subst hm hx h4 h6
  exact (W4_arr m ρ c 5).trans (Cert.KernelIdeal.LayerValue.region0_value (V3 m ρ) c bl hb)

set_option maxHeartbeats 2000000 in
/-- The stretch between the layers: the mean of the neighbours' hidden features, from the hidden features, the edge
    end points and the degree column as the first call leaves them. -/
theorem W5_mean (c : Dev nD)
    (hh : W4 m ρ c (Proc.devRef .tc main_v25) = Cert.ReferenceIdeal.Read.val_main_v38 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
    (hs : W4 m ρ c (Proc.devRef .tc main_v1) = Cert.ReferenceIdeal.Read.val_main_v1 (F := Ideal) (m ((c : Thread nD τ).loc main_arg1)))
    (hd : W4 m ρ c (Proc.devRef .tc main_v3) = Cert.ReferenceIdeal.Read.val_main_v3 (F := Ideal) (m ((c : Thread nD τ).loc main_arg1)))
    (hg : W4 m ρ c (Proc.devRef .tc main_v11) = Cert.ReferenceIdeal.Read.val_main_v27 (F := Ideal) (m ((c : Thread nD τ).loc main_arg1))) :
    W5 m ρ c (Proc.devRef .tc main_v37) = Cert.ReferenceIdeal.Read.val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W4 m ρ c) (Proc.devRef .tc main_v37) = _
  generalize W4 m ρ c = V at hh hs hd hg ⊢
  after_results_simp
  rw [hh, hs, hd, hg]
  rfl

set_option maxHeartbeats 2000000 in
/-- The second bias reshaped to a row. -/
theorem W5_b (c : Dev nD) (bl : FVec Ideal S128 .f32) (h8 : W4 m ρ c (Proc.devRef .tc main_arg8) = bl) :
    W5 m ρ c (Proc.devRef .tc main_v38) = shapeCast S1x128 bl shapeCasts_S128_S1x128 := by
  show StableHlo.after hostOps1 (W4 m ρ c) (Proc.devRef .tc main_v38) = _
  generalize W4 m ρ c = V at h8 ⊢
  after_results_simp
  rw [h8]
  rfl

/-- The stretch between the layers writes neither the hidden features nor the second layer's weights. -/
theorem W5_keep_h (c : Dev nD) : W5 m ρ c (Proc.devRef .tc main_v25) = W4 m ρ c (Proc.devRef .tc main_v25) := by
  show StableHlo.after hostOps1 (W4 m ρ c) (Proc.devRef .tc main_v25) = _
  skip_stretch
theorem W5_keep_arg7 (c : Dev nD) : W5 m ρ c (Proc.devRef .tc main_arg7) = W4 m ρ c (Proc.devRef .tc main_arg7) := by
  show StableHlo.after hostOps1 (W4 m ρ c) (Proc.devRef .tc main_arg7) = _
  skip_stretch
theorem W5_keep_arg9 (c : Dev nD) : W5 m ρ c (Proc.devRef .tc main_arg9) = W4 m ρ c (Proc.devRef .tc main_arg9) := by
  show StableHlo.after hostOps1 (W4 m ρ c) (Proc.devRef .tc main_arg9) = _
  skip_stretch

/-- The second pallas_call: its output array after the call, from the five arrays it finds at its entry. -/
theorem region1_out (c : Dev nD) (M X : FVec Ideal S100000x128 .f32) (Wl Wr : FVec Ideal S128x128 .f32) (bl : FVec Ideal S128 .f32)
    (hm : W5 m ρ c (Proc.devRef .tc main_v37) = M) (hx : W5 m ρ c (Proc.devRef .tc main_v25) = X)
    (hb : W5 m ρ c (Proc.devRef .tc main_v38) = shapeCast S1x128 bl shapeCasts_S128_S1x128)
    (h7 : W5 m ρ c (Proc.devRef .tc main_arg7) = Wl) (h9 : W5 m ρ c (Proc.devRef .tc main_arg9) = Wr) :
    W6 m ρ c (Proc.devRef .tc main_v39) = Cert.Sage.layer false M X Wl bl Wr := by
  subst hm hx h7 h9
  exact (W6_arr m ρ c 5).trans (Cert.KernelIdeal.LayerValue.region1_value (V5 m ρ) c bl hb)

end Cert.KernelIdeal.Walk

end
-- ==== Proof.Walk3.lean ====
import proofs.«402641_j20693152432851_1_alg».proof.Proof.Gen.KernelIdeal.Frame
import proofs.«402641_j20693152432851_1_alg».proof.Proof.Gen.ReferenceIdeal.Read
import proofs.«402641_j20693152432851_1_alg».proof.Proof.TakeFill
import proofs.«402641_j20693152432851_1_alg».proof.Proof.Walk1
import Idealize.ShloMosaic.Lib.StableHlo.Run
import Idealize.ShloMosaic.PureOps.Ideal

set_option maxRecDepth 16384

noncomputable section

/-!
  The host stretches between the second layer and the decoder: the two rows of the label edges, the two guarded
  reads of the embedding rows they name (the reference's two gathers, the end points naming rows), and the zero
  rows appended to fill the decoder's last block.
-/

namespace Cert.KernelIdeal.Walk

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The two rows of the label edges, and the second layer's array beside them -/

theorem W7_src (c : Dev nD) (h2a : W6 m ρ c (Proc.devRef .tc main_arg2) = (m ((c : Thread nD τ).loc main_arg2))) :
    W7 m ρ c (Proc.devRef .tc main_v41) = Cert.ReferenceIdeal.Read.val_main_v67 (F := Ideal) (m ((c : Thread nD τ).loc main_arg2)) := by
  show StableHlo.after hostOps2 (W6 m ρ c) (Proc.devRef .tc main_v41) = _
  generalize W6 m ρ c = V at h2a ⊢
  after_results_simp
  rw [h2a]
  rfl

theorem W7_dst (c : Dev nD) (h2a : W6 m ρ c (Proc.devRef .tc main_arg2) = (m ((c : Thread nD τ).loc main_arg2))) :
    W7 m ρ c (Proc.devRef .tc main_v43) = Cert.ReferenceIdeal.Read.val_main_v69 (F := Ideal) (m ((c : Thread nD τ).loc main_arg2)) := by
  show StableHlo.after hostOps2 (W6 m ρ c) (Proc.devRef .tc main_v43) = _
  generalize W6 m ρ c = V at h2a ⊢
  after_results_simp
  rw [h2a]
  rfl

theorem W7_z (c : Dev nD) (hz : W6 m ρ c (Proc.devRef .tc main_v39) = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W7 m ρ c (Proc.devRef .tc main_v39) = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (by skip_stretch : StableHlo.after hostOps2 (W6 m ρ c) (Proc.devRef .tc main_v39) = _).trans hz

/-- The words of a row of the label edges name rows of the table. -/
theorem src_inRange (c : Dev nD) (h2 : ∀ i, Cert.Sage.InRange (((m ((c : Thread nD τ).loc main_arg2)) : IVec S2x200000 32) i)) :
    ∀ i, Cert.Sage.InRange (Cert.ReferenceIdeal.Read.val_main_v67 (F := Ideal) (m ((c : Thread nD τ).loc main_arg2)) i) :=
  Cert.Sage.row_inRange _ h2 0 _ _

theorem dst_inRange (c : Dev nD) (h2 : ∀ i, Cert.Sage.InRange (((m ((c : Thread nD τ).loc main_arg2)) : IVec S2x200000 32) i)) :
    ∀ i, Cert.Sage.InRange (Cert.ReferenceIdeal.Read.val_main_v69 (F := Ideal) (m ((c : Thread nD τ).loc main_arg2)) i) :=
  Cert.Sage.row_inRange _ h2 1 _ _

/-! ## The two guarded reads: the end points name rows, so each is the reference's gather -/

set_option maxHeartbeats 2000000 in
theorem W8_zs (c : Dev nD) (hz : W6 m ρ c (Proc.devRef .tc main_v39) = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (h2a : W6 m ρ c (Proc.devRef .tc main_arg2) = (m ((c : Thread nD τ).loc main_arg2))) (h2 : ∀ i, Cert.Sage.InRange (((m ((c : Thread nD τ).loc main_arg2)) : IVec S2x200000 32) i)) :
    W8 m ρ c (Proc.devRef .tc main_v44) = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2_1 (W7 m ρ c) (Proc.devRef .tc main_v44) = _
  have hs := W7_src m ρ c h2a
  have hzz := W7_z m ρ c hz
  generalize W7 m ρ c = V at hs hzz ⊢
  after_results_simp
  simp only [TRef.toBuf, TRef.ofBuf, cast_eq]
  rw [hs, hzz]
  refine (Cert.Sage.take_fill (n := 200000) _ _ (src_inRange m c h2) _ _ _ _ _ _ _ _ _ _).trans ?_
  rfl

theorem W8_dst (c : Dev nD) (h2a : W6 m ρ c (Proc.devRef .tc main_arg2) = (m ((c : Thread nD τ).loc main_arg2))) :
    W8 m ρ c (Proc.devRef .tc main_v43) = Cert.ReferenceIdeal.Read.val_main_v69 (F := Ideal) (m ((c : Thread nD τ).loc main_arg2)) :=
  (by skip_stretch : StableHlo.after hostOps2_1 (W7 m ρ c) (Proc.devRef .tc main_v43) = _).trans (W7_dst m ρ c h2a)

theorem W8_z (c : Dev nD) (hz : W6 m ρ c (Proc.devRef .tc main_v39) = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W8 m ρ c (Proc.devRef .tc main_v39) = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (by skip_stretch : StableHlo.after hostOps2_1 (W7 m ρ c) (Proc.devRef .tc main_v39) = _).trans (W7_z m ρ c hz)

set_option maxHeartbeats 2000000 in
theorem W9_zd (c : Dev nD) (hz : W6 m ρ c (Proc.devRef .tc main_v39) = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (h2a : W6 m ρ c (Proc.devRef .tc main_arg2) = (m ((c : Thread nD τ).loc main_arg2))) (h2 : ∀ i, Cert.Sage.InRange (((m ((c : Thread nD τ).loc main_arg2)) : IVec S2x200000 32) i)) :
    W9 m ρ c (Proc.devRef .tc main_v45) = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2_2 (W8 m ρ c) (Proc.devRef .tc main_v45) = _
  have hd := W8_dst m ρ c h2a
  have hzz := W8_z m ρ c hz
  generalize W8 m ρ c = V at hd hzz ⊢
  after_results_simp
  simp only [TRef.toBuf, TRef.ofBuf, cast_eq]
  rw [hd, hzz]
  refine (Cert.Sage.take_fill (n := 200000) _ _ (dst_inRange m c h2) _ _ _ _ _ _ _ _ _ _).trans ?_
  rfl

theorem W9_zs (c : Dev nD) (hz : W6 m ρ c (Proc.devRef .tc main_v39) = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (h2a : W6 m ρ c (Proc.devRef .tc main_arg2) = (m ((c : Thread nD τ).loc main_arg2))) (h2 : ∀ i, Cert.Sage.InRange (((m ((c : Thread nD τ).loc main_arg2)) : IVec S2x200000 32) i)) :
    W9 m ρ c (Proc.devRef .tc main_v44) = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (by skip_stretch : StableHlo.after hostOps2_2 (W8 m ρ c) (Proc.devRef .tc main_v44) = _).trans (W8_zs m ρ c hz h2a h2)

/-! ## The zero rows appended to each -/

theorem W11_zs (c : Dev nD) (hz : W6 m ρ c (Proc.devRef .tc main_v39) = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (h2a : W6 m ρ c (Proc.devRef .tc main_arg2) = (m ((c : Thread nD τ).loc main_arg2))) (h2 : ∀ i, Cert.Sage.InRange (((m ((c : Thread nD τ).loc main_arg2)) : IVec S2x200000 32) i)) :
    W11 m ρ c (Proc.devRef .tc main_v46) = pad S200704x128 ![0, 0] ![704, 0] ![0, 0] (Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
        (sitofp .f32 (constantI S_ 32 0#32) : FVec Ideal S_ .f32) pads_S200000x128_S200704x128_07040_000 h_S_ := by
  show StableHlo.after hostOps2_4 (StableHlo.after hostOps2_3 (W9 m ρ c)) (Proc.devRef .tc main_v46) = _
  have hs := W9_zs m ρ c hz h2a h2
  generalize W9 m ρ c = V at hs ⊢
  after_results_simp
  simp only [TRef.toBuf, TRef.ofBuf, cast_eq]
  rw [hs]

theorem W11_zd (c : Dev nD) (hz : W6 m ρ c (Proc.devRef .tc main_v39) = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (h2a : W6 m ρ c (Proc.devRef .tc main_arg2) = (m ((c : Thread nD τ).loc main_arg2))) (h2 : ∀ i, Cert.Sage.InRange (((m ((c : Thread nD τ).loc main_arg2)) : IVec S2x200000 32) i)) :
    W11 m ρ c (Proc.devRef .tc main_v45) = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (by skip_stretch : StableHlo.after hostOps2_4 (W10 m ρ c) (Proc.devRef .tc main_v45) = _).trans
    ((by skip_stretch : StableHlo.after hostOps2_3 (W9 m ρ c) (Proc.devRef .tc main_v45) = _).trans (W9_zd m ρ c hz h2a h2))

/-- The decoder's first operand: the source rows of the label edges, padded with zero rows. -/
theorem W13_zs (c : Dev nD)
    (hz : W6 m ρ c (Proc.devRef .tc main_v39) = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (h2a : W6 m ρ c (Proc.devRef .tc main_arg2) = (m ((c : Thread nD τ).loc main_arg2))) (h2 : ∀ i, Cert.Sage.InRange (((m ((c : Thread nD τ).loc main_arg2)) : IVec S2x200000 32) i)) :
    W13 m ρ c (Proc.devRef .tc main_v46) = pad S200704x128 ![0, 0] ![704, 0] ![0, 0] (Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
        (sitofp .f32 (constantI S_ 32 0#32) : FVec Ideal S_ .f32) pads_S200000x128_S200704x128_07040_000 h_S_ := by
  exact (by skip_stretch : StableHlo.after hostOps2_6 (W12 m ρ c) (Proc.devRef .tc main_v46) = _).trans
    ((by skip_stretch : StableHlo.after hostOps2_5 (W11 m ρ c) (Proc.devRef .tc main_v46) = _).trans (W11_zs m ρ c hz h2a h2))

/-- The decoder's second operand: the destination rows of the label edges, padded with zero rows. -/
theorem W13_zd (c : Dev nD)
    (hz : W6 m ρ c (Proc.devRef .tc main_v39) = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (h2a : W6 m ρ c (Proc.devRef .tc main_arg2) = (m ((c : Thread nD τ).loc main_arg2))) (h2 : ∀ i, Cert.Sage.InRange (((m ((c : Thread nD τ).loc main_arg2)) : IVec S2x200000 32) i)) :
    W13 m ρ c (Proc.devRef .tc main_v47) = pad S200704x128 ![0, 0] ![704, 0] ![0, 0] (Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
        (sitofp .f32 (constantI S_ 32 0#32) : FVec Ideal S_ .f32) pads_S200000x128_S200704x128_07040_000 h_S_ := by
  show StableHlo.after hostOps2_6 (StableHlo.after hostOps2_5 (W11 m ρ c)) (Proc.devRef .tc main_v47) = _
  have hd := W11_zd m ρ c hz h2a h2
  generalize W11 m ρ c = V at hd ⊢
  after_results_simp
  simp only [TRef.toBuf, TRef.ofBuf, cast_eq]
  rw [hd]

end Cert.KernelIdeal.Walk

end
-- ==== Proof.KDecode.lean ====
/-
  What the decoder kernel leaves in its output array: entry `e` is the product of rows `e` of its two operands
  summed over the 128 features; and the rows below 200000 of two operands padded with zero rows are the operands' own.
-/
import proofs.«402641_j20693152432851_1_alg».proof.Proof.Gen.KernelIdeal.Frame
import proofs.«402641_j20693152432851_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.DecodeValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The offsets of a whole-block rectangle are zero on every axis (one axis; two axes). -/
theorem zero_off1 : (![0] : Fin 1 → Nat) = fun _ => 0 := funext fun a => by fin_cases a; rfl
theorem zero_off2 : (![0, 0] : Fin 2 → Nat) = fun _ => 0 := funext fun a => by fin_cases a <;> rfl

/-- The body's payload at entry `p`: the products of rows `p` of the two blocks summed over the 128 features. -/
theorem rowdot_at (x0 x1 : Vec Ideal S4096x128 .f32) (p : Fin 4096) :
    k2_pay1 x0 x1 (ix1 p) = ∑ k : Fin 128, x0 (ix2 p k) * x1 (ix2 p k) := by
  unfold k2_pay1
  refine (Ideal.multiReduction_add_single _ (0x00000000#32 : BitVec 32) reduces_S4096x128_S4096 (.inl rfl) rfl (ix1 p)).trans ?_
  refine Finset.sum_congr rfl fun k _ => ?_
  rw [shapeCast_self, shapeCast_self]
  have e : reduces_S4096x128_S4096.lift (ix1 p) k = ix2 p k :=
    funext fun a => Fin.ext (by match a with | ⟨0, _⟩ => rfl | ⟨1, _⟩ => rfl)
  rw [e]
  rfl

/-- The printed index maps, decided over the 49 points: block `t` of each window is the `t`-th along the rows. -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = t.val :=
  (by decide +kernel : ∀ t : Fin grid2.N, _)

/-- What the output array ends holding: entry `i` is the decoder at row `i` of the two operand arrays. -/
abbrev decodeArr (a0 a1 : FVec Ideal S200704x128 .f32) : S200704.Idx → Elt Ideal .f32 :=
  fun i => Cert.Sage.decodeAt a0 a1 (i 0)

/-- The zero word is the number zero, so the decoder's entry is the bare sum. -/
theorem decodeAt_eq (a0 a1 : FVec Ideal S200704x128 .f32) (r : Fin 200704) :
    Cert.Sage.decodeAt a0 a1 r = ∑ k : Fin 128, a0 (ix2 r k) * a1 (ix2 r k) := by
  unfold Cert.Sage.decodeAt
  rw [Ideal.ofBits_zero_f32, zero_add]

/-- Row `p` of an operand's block at point `t` is row `4096 t + p` of the operand. -/
theorem src_row (c : Dev nD) (t : Fin cfg2.N) (p : Fin 4096) (k : Fin 128) (r : Fin 200704) (hr : r.val = 4096 * t.val + p.val) :
    (iblk2 V c 0 t : Vec Ideal S4096x128 .f32) (ix2 p k) = (V c main_v46 : S200704x128.Idx → Elt Ideal .f32) (ix2 r k) := by
  obtain ⟨e0, e1, -, -, -⟩ := block_index t
  unfold iblk2
  rw [View.read_apply]
  show V c main_v46 _ = V c main_v46 _
  congr 1
  funext a
  apply Fin.ext
  match a with
  | ⟨0, _⟩ => show win2_0.index t (0 : Fin 2) * 4096 + 1 * p.val = r.val; omega
  | ⟨1, _⟩ => show win2_0.index t (1 : Fin 2) * 128 + 1 * k.val = k.val; omega

/-- The same for the second operand. -/
theorem dst_row (c : Dev nD) (t : Fin cfg2.N) (p : Fin 4096) (k : Fin 128) (r : Fin 200704) (hr : r.val = 4096 * t.val + p.val) :
    (iblk2 V c 1 t : Vec Ideal S4096x128 .f32) (ix2 p k) = (V c main_v47 : S200704x128.Idx → Elt Ideal .f32) (ix2 r k) := by
  obtain ⟨-, -, e0, e1, -⟩ := block_index t
  unfold iblk2
  rw [View.read_apply]
  show V c main_v47 _ = V c main_v47 _
  congr 1
  funext a
  apply Fin.ext
  match a with
  | ⟨0, _⟩ => show win2_1.index t (0 : Fin 2) * 4096 + 1 * p.val = r.val; omega
  | ⟨1, _⟩ => show win2_1.index t (1 : Fin 2) * 128 + 1 * k.val = k.val; omega

/-- What point `t` writes back is block `t` of the decoder of the operand arrays. -/
theorem written_block (c : Dev nD) (t : Fin cfg2.N) :
    (dat2 (F := Ideal) V c).flushed 2 t = ((cfg2.win 2).blk t).view.read (Elt Ideal) (decodeArr (V c main_v46) (V c main_v47)) := by
  show (cfg2.win 2).cut (grid2.coords t) ((dat2 V c).after 2 t) = _
  rw [after2_2]
  unfold out2_2
  rw [View.canon_unit_zero zero_off1]
  simp only [View.ld_unit_zero (S := S4096x128) zero_off2]
  funext j
  obtain ⟨-, -, -, -, e2⟩ := block_index t
  have hp : (j 0).val < 4096 := Nat.lt_of_lt_of_le (j 0).isLt ((win2 2).xsize_le (grid2.coords t) 0)
  have hj : (win2 2).xinj (grid2.coords t) j = ix1 (⟨(j 0).val, hp⟩ : Fin 4096) :=
    funext fun a => by match a with | ⟨0, _⟩ => rfl
  have hr : ((((cfg2.win 2).blk t).view.emb j) 0).val = 4096 * t.val + (j 0).val := by
    show win2_2.index t (0 : Fin 1) * 4096 + 1 * (j 0).val = _
    omega
  show k2_pay1 (iblk2 V c 0 t) (iblk2 V c 1 t) ((win2 2).xinj (grid2.coords t) j)
    = Cert.Sage.decodeAt (V c main_v46) (V c main_v47) ((((cfg2.win 2).blk t).view.emb j) 0)
  rw [hj]
  refine ((rowdot_at (iblk2 V c 0 t) (iblk2 V c 1 t) ⟨(j 0).val, hp⟩).trans ?_).trans
    (decodeAt_eq (V c main_v46) (V c main_v47) ((((cfg2.win 2).blk t).view.emb j) 0)).symm
  refine Finset.sum_congr rfl fun k _ => ?_
  exact congrArg₂ (· * ·) (src_row V c t ⟨(j 0).val, hp⟩ k _ hr) (dst_row V c t ⟨(j 0).val, hp⟩ k _ hr)

/-- An entry of the array is in point `t`'s block iff it lies in the block's range of 4096 entries. -/
theorem mem_block_iff (t : Fin cfg2.N) (i : S200704.Idx) :
    i ∈ ((cfg2.win 2).blk t).view.set ↔ ∀ a : Fin 1, win2_2.index t a * S4096.size a ≤ (i a).val ∧ (i a).val < win2_2.index t a * S4096.size a + S4096.size a := by
  show i ∈ ((View.whole main_v48).slice (win2_2.rect t)).set ↔ _
  rw [View.set_slice_whole, Rect.mem_set_unit]
  exact Iff.rfl

/-- Entry `e` is written back by point `e / 4096`: the 49 blocks of 4096 entries fill the 200704. -/
theorem entry_covered (i : S200704.Idx) :
    ∃ t : Fin cfg2.N, (cfg2.win 2).flush t = true ∧ i ∈ ((cfg2.win 2).blk t).view.set := by
  have hi : (i 0).val < 200704 := (i 0).isLt
  have hN : cfg2.N = 49 := N_2
  obtain ⟨t, ht⟩ : ∃ t : Fin cfg2.N, t.val = (i 0).val / 4096 := ⟨⟨(i 0).val / 4096, by omega⟩, rfl⟩
  obtain ⟨-, -, -, -, e2⟩ := block_index t
  refine ⟨t, flush2_2 t, ?_⟩
  rw [mem_block_iff]
  intro a
  match a with
  | ⟨0, _⟩ =>
    show win2_2.index t (0 : Fin 1) * 4096 ≤ (i 0).val ∧ (i 0).val < win2_2.index t (0 : Fin 1) * 4096 + 4096
    omega

/-- Region 2: entry `e` of its output array after the run. -/
theorem region2_value (c : Dev nD) :
    (dat2 (F := Ideal) V c).arrAt 2 cfg2.N
      = fun i : S200704.Idx => Cert.Sage.decodeAt (V c main_v46) (V c main_v47) (i 0) :=
  (dat2 V c).arrAt_eq_of_cover 2 (decodeArr (V c main_v46) (V c main_v47)) (fun t _ => written_block V c t) entry_covered

/-- Below the padding the padded operands are the operands, so the decoder's entry is theirs. -/
theorem decode_pad (zs zd : FVec Ideal S200000x128 .f32) (z : FVec Ideal S_ .f32) (e : Fin 200000) :
    Cert.Sage.decodeAt (pad S200704x128 ![0, 0] ![704, 0] ![0, 0] zs z pads_S200000x128_S200704x128_07040_000 h_S_)
        (pad S200704x128 ![0, 0] ![704, 0] ![0, 0] zd z pads_S200000x128_S200704x128_07040_000 h_S_)
        (⟨e.val, Nat.lt_trans e.isLt (by decide : (200000 : ℕ) < 200704)⟩ : Fin 200704)
      = Cert.Sage.decodeAt zs zd e := by
  have hp : ∀ (x : FVec Ideal S200000x128 .f32) (k : Fin 128),
      pad S200704x128 ![0, 0] ![704, 0] ![0, 0] x z pads_S200000x128_S200704x128_07040_000 h_S_
        (ix2 (⟨e.val, Nat.lt_trans e.isLt (by decide : (200000 : ℕ) < 200704)⟩ : Fin 200704) k) = x (ix2 e k) := fun x k =>
    pad_apply_of_inside _ _ _ x z _ _ _ (ix2 e k) fun a => by
      match a with
      | ⟨0, _⟩ => show e.val = 0 + e.val * (0 + 1); omega
      | ⟨1, _⟩ => show k.val = 0 + k.val * (0 + 1); omega
  unfold Cert.Sage.decodeAt
  refine congrArg _ (Finset.sum_congr rfl fun k _ => ?_)
  rw [hp zs k, hp zd k]

/-- The slice that drops the padding reads entry `e`. -/
theorem slice_apply (y : FVec Ideal S200704 .f32) (i : S200000.Idx) :
    extractStridedSlice S200000 ![0] y slices_S200704_S200000_0 i = y (ix1 (⟨(i 0).val, Nat.lt_trans (i 0).isLt (by decide : (200000 : ℕ) < 200704)⟩ : Fin 200704)) := by
  refine extractStridedSlice_apply _ _ _ i _ fun a => ?_
  match a with
  | ⟨0, _⟩ => exact (Nat.zero_add _).symm

end Cert.KernelIdeal.DecodeValue

end
-- ==== Proof.Walk4.lean ====
import proofs.«402641_j20693152432851_1_alg».proof.Proof.Gen.KernelIdeal.Frame
import proofs.«402641_j20693152432851_1_alg».proof.Proof.Gen.ReferenceIdeal.Read
import proofs.«402641_j20693152432851_1_alg».proof.Proof.TakeFill
import proofs.«402641_j20693152432851_1_alg».proof.Proof.Walk1
import proofs.«402641_j20693152432851_1_alg».proof.Proof.KDecode
import Idealize.ShloMosaic.Lib.StableHlo.Run
import Idealize.ShloMosaic.PureOps.Ideal

set_option maxRecDepth 16384

noncomputable section

/-!
  The decoder's pallas_call and the slice after it: entry e of the result buffer is the decoder's sum for the two
  unpadded operands at edge e.
-/

namespace Cert.KernelIdeal.Walk

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The result buffer at the end of the run, from the decoder's two operands at its entry. -/
theorem result_of (c : Dev nD) (ZS ZD : FVec Ideal S200000x128 .f32)
    (hzs : W13 m ρ c (Proc.devRef .tc main_v46) = pad S200704x128 ![0, 0] ![704, 0] ![0, 0] ZS
        (sitofp .f32 (constantI S_ 32 0#32) : FVec Ideal S_ .f32) pads_S200000x128_S200704x128_07040_000 h_S_)
    (hzd : W13 m ρ c (Proc.devRef .tc main_v47) = pad S200704x128 ![0, 0] ![704, 0] ![0, 0] ZD
        (sitofp .f32 (constantI S_ 32 0#32) : FVec Ideal S_ .f32) pads_S200000x128_S200704x128_07040_000 h_S_) :
    W15 m ρ c (Proc.devRef .tc main_v49) = fun i : S200000.Idx => Cert.Sage.decodeAt ZS ZD (i 0) := by
  have h48 : W14 m ρ c (Proc.devRef .tc main_v48)
      = fun i : S200704.Idx => Cert.Sage.decodeAt
          (pad S200704x128 ![0, 0] ![704, 0] ![0, 0] ZS
            (sitofp .f32 (constantI S_ 32 0#32) : FVec Ideal S_ .f32) pads_S200000x128_S200704x128_07040_000 h_S_)
          (pad S200704x128 ![0, 0] ![704, 0] ![0, 0] ZD
            (sitofp .f32 (constantI S_ 32 0#32) : FVec Ideal S_ .f32) pads_S200000x128_S200704x128_07040_000 h_S_) (i 0) := by
    refine (W14_arr m ρ c 2).trans ?_
    refine (Cert.KernelIdeal.DecodeValue.region2_value (V13 m ρ) c).trans ?_
    show (fun i : S200704.Idx => Cert.Sage.decodeAt (W13 m ρ c (Proc.devRef .tc main_v46))
      (W13 m ρ c (Proc.devRef .tc main_v47)) (i 0)) = _
    rw [hzs, hzd]
  show StableHlo.after hostOps3 (W14 m ρ c) (Proc.devRef .tc main_v49) = _
  generalize W14 m ρ c = V at h48 ⊢
  after_results_simp
  rw [h48]
  funext i
  refine (Cert.KernelIdeal.DecodeValue.slice_apply _ i).trans ?_
  exact Cert.KernelIdeal.DecodeValue.decode_pad ZS ZD _ (i 0)

end Cert.KernelIdeal.Walk

end
-- ==== Proof.RefLayer.lean ====
/-
  The reference's two layers and its decoder, read at an index: they are the specification's functions of the
  stages before them.
-/
import proofs.«402641_j20693152432851_1_alg».proof.Proof.Gen.ReferenceIdeal.Read
import proofs.«402641_j20693152432851_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Read

/-- The linear part assembled.  Two contractions over the 128 features: the data side is read through index maps
    that are the coordinate pairs `(r, k)`, the weight side is a matrix `Wlt` (`Wrt`) whose entry at the contraction's
    index is the weight at `(j, k)` (the transposed weight at `(k, j)`); with the bias read at `j` added between the
    two sums this is the specification's entry `(r, j)`. -/
theorem lin_eq {n : Nat} (M X : FVec Ideal ⟨2, ![n, 128]⟩ .f32) (Wl Wr Wlt Wrt : FVec Ideal ⟨2, ![128, 128]⟩ .f32)
    (bl : FVec Ideal ⟨1, ![128]⟩ .f32) (r : Fin n) (j : Fin 128)
    (l1 l2 : Fin 128 → (⟨2, ![n, 128]⟩ : Shape).Idx) (r1 r2 : Fin 128 → (⟨2, ![128, 128]⟩ : Shape).Idx)
    (b : (⟨1, ![128]⟩ : Shape).Idx)
    (hl1 : ∀ k, l1 k = ix2 r k) (hr1 : ∀ k, Wlt (r1 k) = Wl (ix2 j k))
    (hl2 : ∀ k, l2 k = ix2 r k) (hr2 : ∀ k, Wrt (r2 k) = Wr (ix2 j k))
    (hb : b = ix1 j) :
    (∑ k : Fin 128, M (l1 k) * Wlt (r1 k)) + bl b + (∑ k : Fin 128, X (l2 k) * Wrt (r2 k))
      = Cert.Sage.layerAt M X Wl bl Wr r j := by
  subst hb
  simp only [hl1, hr1, hl2, hr2]
  rfl

/-- A layer with the maximum, at an index. -/
theorem layer_true_apply {n : Nat} (M X : FVec Ideal ⟨2, ![n, 128]⟩ .f32) (Wl : FVec Ideal ⟨2, ![128, 128]⟩ .f32)
    (bl : FVec Ideal ⟨1, ![128]⟩ .f32) (Wr : FVec Ideal ⟨2, ![128, 128]⟩ .f32) (i : (⟨2, ![n, 128]⟩ : Shape).Idx) :
    Cert.Sage.layer true M X Wl bl Wr i
      = max (Cert.Sage.layerAt M X Wl bl Wr (i 0) (i 1)) (Ideal.ofBits .f32 0x00000000#32) := by
  unfold Cert.Sage.layer
  rw [if_pos rfl]

/-- A layer without the maximum, at an index. -/
theorem layer_false_apply {n : Nat} (M X : FVec Ideal ⟨2, ![n, 128]⟩ .f32) (Wl : FVec Ideal ⟨2, ![128, 128]⟩ .f32)
    (bl : FVec Ideal ⟨1, ![128]⟩ .f32) (Wr : FVec Ideal ⟨2, ![128, 128]⟩ .f32) (i : (⟨2, ![n, 128]⟩ : Shape).Idx) :
    Cert.Sage.layer false M X Wl bl Wr i = Cert.Sage.layerAt M X Wl bl Wr (i 0) (i 1) := by
  unfold Cert.Sage.layer
  rw [if_neg Bool.false_ne_true]

/-- The decoder assembled: the zero word plus the sum over the features of a product stage `P` that at the
    reduction's index is the product of the two rows' entries. -/
theorem dec_eq {n : Nat} (zs zd P : FVec Ideal ⟨2, ![n, 128]⟩ .f32) (e : Fin n)
    (ix : Fin 128 → (⟨2, ![n, 128]⟩ : Shape).Idx)
    (hP : ∀ k, P (ix k) = zs (ix2 e k) * zd (ix2 e k)) :
    Ideal.ofBits .f32 0x00000000#32 + ∑ k : Fin 128, P (ix k) = Cert.Sage.decodeAt zs zd e := by
  simp only [hP]
  rfl

/-- Layer 0 with its maximum against zero. -/
theorem layer0 (x0 : IVec S100000 32) (x1 : IVec S2x1600000 32) (x3 : FVec Ideal S100000x128 .f32)
    (x4 : FVec Ideal S128x128 .f32) (x5 : FVec Ideal S128 .f32) (x6 : FVec Ideal S128x128 .f32) :
    val_main_v38 (F := Ideal) x0 x1 x3 x4 x5 x6
      = Cert.Sage.layer true (val_main_v29 (F := Ideal) x0 x1 x3) (val_main_v10 (F := Ideal) x0 x3) x4 x5 x6 := by
  funext i
  -- the stages, outermost first: maximum, the two additions, the two contractions, the bias broadcast, the zero
  rw [val_main_v38_apply, val_main_v37_apply, val_main_v34_apply, val_main_v31_apply, val_main_v36_apply,
    val_main_v33_apply, val_main_v32_apply, val_main_call0_v0_apply, val_main_call0_cst_apply,
    Ideal.maximumf_def, Ideal.addf_def, Ideal.addf_def, Ideal.ofBits_def, layer_true_apply]
  refine congrArg (fun t => max t (Ideal.ofBits .f32 0x00000000#32)) ?_
  -- the transposed weights read at the swapped index; every index map is a pair of coordinates
  exact lin_eq (val_main_v29 (F := Ideal) x0 x1 x3) (val_main_v10 (F := Ideal) x0 x3) x4 x6
    (val_main_v30 (F := Ideal) x4) (val_main_v35 (F := Ideal) x6) x5 (i 0) (i 1)
    (lidx_main_v31 i) (lidx_main_v36 i) (ridx_main_v31 i) (ridx_main_v36 i) (idx_main_v32 (idx_main_v33 i))
    (fun k => funext fun a => Fin.ext (by match a with | ⟨0, _⟩ => rfl | ⟨1, _⟩ => rfl))
    (fun k => (val_main_v30_apply (F := Ideal) x4 (ridx_main_v31 i k)).trans
      (congrArg x4 (funext fun a => Fin.ext (by match a with | ⟨0, _⟩ => rfl | ⟨1, _⟩ => rfl))))
    (fun k => funext fun a => Fin.ext (by match a with | ⟨0, _⟩ => rfl | ⟨1, _⟩ => rfl))
    (fun k => (val_main_v35_apply (F := Ideal) x6 (ridx_main_v36 i k)).trans
      (congrArg x6 (funext fun a => Fin.ext (by match a with | ⟨0, _⟩ => rfl | ⟨1, _⟩ => rfl))))
    (funext fun a => Fin.ext (by match a with | ⟨0, _⟩ => rfl))

/-- Layer 1, no maximum. -/
theorem layer1 (x0 : IVec S100000 32) (x1 : IVec S2x1600000 32) (x3 : FVec Ideal S100000x128 .f32)
    (x4 : FVec Ideal S128x128 .f32) (x5 : FVec Ideal S128 .f32) (x6 x7 : FVec Ideal S128x128 .f32)
    (x8 : FVec Ideal S128 .f32) (x9 : FVec Ideal S128x128 .f32) :
    val_main_v65 (F := Ideal) x0 x1 x3 x4 x5 x6 x7 x8 x9
      = Cert.Sage.layer false (val_main_v57 (F := Ideal) x0 x1 x3 x4 x5 x6) (val_main_v38 (F := Ideal) x0 x1 x3 x4 x5 x6) x7 x8 x9 := by
  funext i
  rw [val_main_v65_apply, val_main_v62_apply, val_main_v59_apply, val_main_v64_apply,
    val_main_v61_apply, val_main_v60_apply, Ideal.addf_def, Ideal.addf_def, layer_false_apply]
  exact lin_eq (val_main_v57 (F := Ideal) x0 x1 x3 x4 x5 x6) (val_main_v38 (F := Ideal) x0 x1 x3 x4 x5 x6) x7 x9
    (val_main_v58 (F := Ideal) x7) (val_main_v63 (F := Ideal) x9) x8 (i 0) (i 1)
    (lidx_main_v59 i) (lidx_main_v64 i) (ridx_main_v59 i) (ridx_main_v64 i) (idx_main_v60 (idx_main_v61 i))
    (fun k => funext fun a => Fin.ext (by match a with | ⟨0, _⟩ => rfl | ⟨1, _⟩ => rfl))
    (fun k => (val_main_v58_apply (F := Ideal) x7 (ridx_main_v59 i k)).trans
      (congrArg x7 (funext fun a => Fin.ext (by match a with | ⟨0, _⟩ => rfl | ⟨1, _⟩ => rfl))))
    (fun k => funext fun a => Fin.ext (by match a with | ⟨0, _⟩ => rfl | ⟨1, _⟩ => rfl))
    (fun k => (val_main_v63_apply (F := Ideal) x9 (ridx_main_v64 i k)).trans
      (congrArg x9 (funext fun a => Fin.ext (by match a with | ⟨0, _⟩ => rfl | ⟨1, _⟩ => rfl))))
    (funext fun a => Fin.ext (by match a with | ⟨0, _⟩ => rfl))

/-- The decoder. -/
theorem decode (x0 : IVec S100000 32) (x1 : IVec S2x1600000 32) (x2 : IVec S2x200000 32) (x3 : FVec Ideal S100000x128 .f32)
    (x4 : FVec Ideal S128x128 .f32) (x5 : FVec Ideal S128 .f32) (x6 x7 : FVec Ideal S128x128 .f32)
    (x8 : FVec Ideal S128 .f32) (x9 : FVec Ideal S128x128 .f32) :
    val_main_v85 (F := Ideal) x0 x1 x2 x3 x4 x5 x6 x7 x8 x9
      = fun i : S200000.Idx => Cert.Sage.decodeAt (val_main_v76 (F := Ideal) x0 x1 x2 x3 x4 x5 x6 x7 x8 x9)
          (val_main_v83 (F := Ideal) x0 x1 x2 x3 x4 x5 x6 x7 x8 x9) (i 0) := by
  funext i
  -- the sum over the features of the product stage, on top of the zero word
  rw [val_main_v85_apply, val_main_cst_16_apply, Ideal.ofBits_def]
  refine dec_eq (val_main_v76 (F := Ideal) x0 x1 x2 x3 x4 x5 x6 x7 x8 x9)
    (val_main_v83 (F := Ideal) x0 x1 x2 x3 x4 x5 x6 x7 x8 x9)
    (val_main_v84 (F := Ideal) x0 x1 x2 x3 x4 x5 x6 x7 x8 x9) (i 0) (idx_main_v85 i) (fun k => ?_)
  have e : idx_main_v85 i k = ix2 (i 0) k :=
    funext fun a => Fin.ext (by match a with | ⟨0, _⟩ => rfl | ⟨1, _⟩ => rfl)
  rw [val_main_v84_apply, Ideal.mulf_def, e]
  rfl

end Cert.ReferenceIdeal.RefValue

end
-- ==== Proof.Final.lean ====
/-
  The assembly: the kernel program's result buffer holds the reference's result of the same arguments.

  The run of the kernel program is read boundary by boundary: the looked-up features, the mean over the neighbours,
  the first layer, the mean again, the second layer, the two gathers at the label edges' end points, and the
  decoder, each identified with the reference's stage of the same name; the three places where the two programs
  compute differently (the two layers, which the kernel computes block by block through its matrix unit, and the
  decoder, which it computes on zero-padded operands) meet in the specification's index-by-index functions.
-/
import proofs.«402641_j20693152432851_1_alg».proof.Proof.Walk1
import proofs.«402641_j20693152432851_1_alg».proof.Proof.Walk2
import proofs.«402641_j20693152432851_1_alg».proof.Proof.Walk3
import proofs.«402641_j20693152432851_1_alg».proof.Proof.Walk4
import proofs.«402641_j20693152432851_1_alg».proof.Proof.RefLayer

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The kernel program's result buffer at the end of its run is the reference's result of the same arguments, when
    the node ids and the label edges' end points name rows of the embedding table. -/
theorem result_eq (c : Dev nD) (h0 : ∀ i, Cert.Sage.InRange (((m ((c : Thread nD τ).loc main_arg0)) : IVec S100000 32) i)) (h2 : ∀ i, Cert.Sage.InRange (((m ((c : Thread nD τ).loc main_arg2)) : IVec S2x200000 32) i)) :
    W15 m ρ c (Proc.devRef .tc main_v49) = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  -- the first layer's operands at its entry, and its output
  have hx3 := W3_x m ρ c h0
  have hm3 := W3_mean m ρ c h0
  have hh4 : W4 m ρ c (Proc.devRef .tc main_v25) = Cert.ReferenceIdeal.Read.val_main_v38 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
    (region0_out m ρ c _ _ _ _ _ hm3 hx3 (W3_b m ρ c) (W3_arg4 m ρ c) (W3_arg6 m ρ c)).trans
      (Cert.ReferenceIdeal.RefValue.layer0 _ _ _ _ _ _).symm
  -- the edges and the degree column are still there after the first call
  have hs4 : W4 m ρ c (Proc.devRef .tc main_v1) = Cert.ReferenceIdeal.Read.val_main_v1 (F := Ideal) (m ((c : Thread nD τ).loc main_arg1)) :=
    (W4_of_ne m ρ c main_v1 (by decide)).trans (W3_src m ρ c)
  have hd4 : W4 m ρ c (Proc.devRef .tc main_v3) = Cert.ReferenceIdeal.Read.val_main_v3 (F := Ideal) (m ((c : Thread nD τ).loc main_arg1)) :=
    (W4_of_ne m ρ c main_v3 (by decide)).trans (W3_dst m ρ c)
  have hg4 : W4 m ρ c (Proc.devRef .tc main_v11) = Cert.ReferenceIdeal.Read.val_main_v27 (F := Ideal) (m ((c : Thread nD τ).loc main_arg1)) :=
    (W4_of_ne m ρ c main_v11 (by decide)).trans (W3_deg m ρ c)
  have h84 : W4 m ρ c (Proc.devRef .tc main_arg8) = (m ((c : Thread nD τ).loc main_arg8)) := by walk_back
  -- the second layer's operands at its entry, and its output
  have hm5 := W5_mean m ρ c hh4 hs4 hd4 hg4
  have hh5 := (W5_keep_h m ρ c).trans hh4
  have hb5 := W5_b m ρ c _ h84
  have h75 : W5 m ρ c (Proc.devRef .tc main_arg7) = (m ((c : Thread nD τ).loc main_arg7)) := (W5_keep_arg7 m ρ c).trans (by walk_back)
  have h95 : W5 m ρ c (Proc.devRef .tc main_arg9) = (m ((c : Thread nD τ).loc main_arg9)) := (W5_keep_arg9 m ρ c).trans (by walk_back)
  have hz6 : W6 m ρ c (Proc.devRef .tc main_v39) = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
    (region1_out m ρ c _ _ _ _ _ hm5 hh5 hb5 h75 h95).trans
      (Cert.ReferenceIdeal.RefValue.layer1 _ _ _ _ _ _ _ _ _).symm
  have h26 : W6 m ρ c (Proc.devRef .tc main_arg2) = (m ((c : Thread nD τ).loc main_arg2)) := by walk_back
  -- the decoder
  have hzs := W13_zs m ρ c hz6 h26 h2
  have hzd := W13_zd m ρ c hz6 h26 h2
  exact (result_of m ρ c _ _ hzs hzd).trans (Cert.ReferenceIdeal.RefValue.decode _ _ _ _ _ _ _ _ _ _).symm

end Cert.KernelIdeal.Walk

end
-- ==== Proof.lean ====
/-
  The certificate of the GraphSAGE link predictor: an embedding lookup, two SAGE layers (the mean of the neighbours'
  features through one weight matrix, the node's own features through another, a bias; a maximum against zero after
  the first), and the dot product of the two end points' embeddings for every label edge.

  The kernel program computes the two layers in two pallas_calls (twenty blocks of 5000 rows each, two matrix
  products per block) and the dot products in a third (49 blocks of 4096 edges, the operands padded with zero rows);
  the gathers and the scatter-additions stay on the host in both programs.  The reference computes the same with
  dot_general and a sum.  On the extended reals both are the same sums of the same products, index by index
  (Proof/Spec.lean); nothing needs the inputs' finiteness.  The precondition's two added conjuncts say that the node
  ids and the label edges' end points name rows of the tables they index: there the kernel's guarded reads
  (jnp.take) are the reference's gathers (Proof/TakeFill.lean).

  Frames: the two kernel programs' are generated; the reference's is its generated run with the result dropped.
  `preserves` has no entry.  `algebraic`: the kernel program's run with its result buffer named (Proof/KRun.lean) ends
  at the reference's result of the same arguments (Proof/Final.lean), and the reference's run ends there by its own
  generated reading.
-/
import proofs.«402641_j20693152432851_1_alg».proof.Defs
import proofs.«402641_j20693152432851_1_alg».proof.Proof.Gen.Kernel
import proofs.«402641_j20693152432851_1_alg».proof.Proof.Gen.Kernel.Skeleton
import proofs.«402641_j20693152432851_1_alg».proof.Proof.Gen.Kernel.Launch
import proofs.«402641_j20693152432851_1_alg».proof.Proof.Gen.Kernel.Points
import proofs.«402641_j20693152432851_1_alg».proof.Proof.Gen.Kernel.Frame
import proofs.«402641_j20693152432851_1_alg».proof.Proof.Gen.KernelIdeal
import proofs.«402641_j20693152432851_1_alg».proof.Proof.Gen.KernelIdeal.Skeleton
import proofs.«402641_j20693152432851_1_alg».proof.Proof.Gen.KernelIdeal.Launch
import proofs.«402641_j20693152432851_1_alg».proof.Proof.Gen.KernelIdeal.Points
import proofs.«402641_j20693152432851_1_alg».proof.Proof.Gen.KernelIdeal.Frame
import proofs.«402641_j20693152432851_1_alg».proof.Proof.Gen.ReferenceIdeal
import proofs.«402641_j20693152432851_1_alg».proof.Proof.Gen.ReferenceIdeal.Run
import proofs.«402641_j20693152432851_1_alg».proof.Proof.Gen.ReferenceIdeal.Read
import proofs.«402641_j20693152432851_1_alg».proof.Proof.Gen.Pre_finite_inputs
import proofs.«402641_j20693152432851_1_alg».proof.Proof.KRun
import proofs.«402641_j20693152432851_1_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the reference's own term of the arguments: the kernel program's by the boundary-by-boundary
    reading of its run, the reference's by its generated reading, the arguments' agreement rewritten. -/
theorem algebraic : Cert.algebraic_KernelIdeal_ReferenceIdeal := by
  intro m ρ m' ρ' hpre hagree
  refine ⟨fun c => Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.KernelIdeal.Gen.run_main (F := Ideal) m ρ)
    exact Cert.KernelIdeal.Walk.result_eq m ρ c
      (Cert.Sage.nid_inRange _ _ _ _ _ _ _ _ _ _ (hpre c)) (Cert.Sage.eli_inRange _ _ _ _ _ _ _ _ _ _ (hpre c))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v85_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
